-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S4096 : Shape := ⟨1, ![4096]⟩
abbrev S4096x64 : Shape := ⟨2, ![4096, 64]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v10 : IVec S_ 1) (main_v15 : IVec S4096x64 1) (main_c_5 : IVec S_ 1) : IVec S_ 1 :=
  let main_v16 : IVec S_ 1 := (fun x v => Host.reduce IntOp.andi x v reducesTo_S4096x64_S_d0_1 h_S_) main_v15 main_c_5
  let main_v17 : IVec S_ 1 := andi main_v10 main_v16
  main_v17

def fn {F : FTy → Type} [FloatOps F] (main_arg0 : FVec F S4096x10000 .f32) (main_arg1 : IVec S4096 32) (main_arg2 : IVec S4096x64 32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 10000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S4096x64 32 := broadcastInDim S4096x64 ![] bcast_S_S4096x64 main_c_3
  let main_v12 : IVec S4096x64 1 := cmpi .sge main_arg2 main_v11
  let main_c_4 : IVec S_ 32 := constantI S_ 32 10000#32
  let main_v13 : IVec S4096x64 32 := broadcastInDim S4096x64 ![] bcast_S_S4096x64 main_c_4
  let main_v14 : IVec S4096x64 1 := cmpi .slt main_arg2 main_v13
  let main_v15 : IVec S4096x64 1 := andi main_v12 main_v14
  let main_c_5 : IVec S_ 1 := constantI S_ 1 1#1
  fn_part1 (F := F) main_v10 main_v15 main_c_5
-- ==== Kernel.lean ====
abbrev S4096x10000 : Shape := ⟨2, ![4096, 10000]⟩
abbrev S4096 : Shape := ⟨1, ![4096]⟩
abbrev S4096x64 : Shape := ⟨2, ![4096, 64]⟩
abbrev S4096x1 : Shape := ⟨2, ![4096, 1]⟩
abbrev S256x10000 : Shape := ⟨2, ![256, 10000]⟩
abbrev S256x1 : Shape := ⟨2, ![256, 1]⟩
abbrev S256 : Shape := ⟨1, ![256]⟩
abbrev S4096x65 : Shape := ⟨2, ![4096, 65]⟩
abbrev S_ : Shape := ⟨0, ![]⟩
abbrev S4096x65x1 : Shape := ⟨3, ![4096, 65, 1]⟩
abbrev S1 : Shape := ⟨1, ![1]⟩
abbrev S1x1x1 : Shape := ⟨3, ![1, 1, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4096x64x1 : Shape := ⟨3, ![4096, 64, 1]⟩
abbrev S4096x1x64 : Shape := ⟨3, ![4096, 1, 64]⟩
abbrev S4096x64x64 : Shape := ⟨3, ![4096, 64, 64]⟩
abbrev S1x64x64 : Shape := ⟨3, ![1, 64, 64]⟩

abbrev nBuf : Space → Nat
  | .hbm => 69
  | .vmem => 4
  | .smem => 0
  | _ => 0

abbrev bufTy : (tb : Table) → Fin (tcTables nBuf tb) → BufTy
  | .hbm, ⟨0, _⟩ => ⟨S4096x10000, .f32⟩
  | .hbm, ⟨1, _⟩ => ⟨S4096, .i32⟩
  | .hbm, ⟨2, _⟩ => ⟨S4096x64, .i32⟩
  | .hbm, ⟨3, _⟩ => ⟨S4096x1, .f32⟩
  | .hbm, ⟨4, _⟩ => ⟨S4096, .f32⟩
  | .hbm, ⟨5, _⟩ => ⟨S4096x1, .i32⟩
  | .hbm, ⟨6, _⟩ => ⟨S4096x65, .i32⟩
  | .hbm, ⟨7, _⟩ => ⟨S_, .i32⟩
  | .hbm, ⟨8, _⟩ => ⟨S4096x65, .i32⟩
  | .hbm, ⟨9, _⟩ => ⟨S4096x65, .i1⟩
  | .hbm, ⟨10, _⟩ => ⟨S_, .i32⟩
  | .hbm, ⟨11, _⟩ => ⟨S4096x65, .i32⟩
  | .hbm, ⟨12, _⟩ => ⟨S4096x65, .i32⟩
  | .hbm, ⟨13, _⟩ => ⟨S4096x65, .i32⟩
  | .hbm, ⟨14, _⟩ => ⟨S4096x65x1, .i32⟩
  | .hbm, ⟨15, _⟩ => ⟨S1, .i32⟩
  | .hbm, ⟨16, _⟩ => ⟨S_, .i32⟩
  | .hbm, ⟨17, _⟩ => ⟨S4096x65x1, .i32⟩
  | .hbm, ⟨18, _⟩ => ⟨S4096x65x1, .i1⟩
  | .hbm, ⟨19, _⟩ => ⟨S1x1x1, .i32⟩
  | .hbm, ⟨20, _⟩ => ⟨S4096x65x1, .i32⟩
  | .hbm, ⟨21, _⟩ => ⟨S4096x65x1, .i1⟩
  | .hbm, ⟨22, _⟩ => ⟨S4096x65x1, .i1⟩
  | .hbm, ⟨23, _⟩ => ⟨S_, .i1⟩
  | .hbm, ⟨24, _⟩ => ⟨S4096x65, .i1⟩
  | .hbm, ⟨25, _⟩ => ⟨S4096x65, .f32⟩
  | .hbm, ⟨26, _⟩ => ⟨S_, .f32⟩
  | .hbm, ⟨27, _⟩ => ⟨S4096x65, .f32⟩
  | .hbm, ⟨28, _⟩ => ⟨S4096x65, .f32⟩
  | .hbm, ⟨29, _⟩ => ⟨S4096x1, .f32⟩
  | .hbm, ⟨30, _⟩ => ⟨S4096, .f32⟩
  | .hbm, ⟨31, _⟩ => ⟨S4096x64, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S64, .i32⟩
  | .hbm, ⟨39, _⟩ => ⟨S64x1, .i32⟩
  | .hbm, ⟨40, _⟩ => ⟨S1x64, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S4096x64x1, .i32⟩
  | .hbm, ⟨45, _⟩ => ⟨S4096x1x64, .i32⟩
  | .hbm, ⟨46, _⟩ => ⟨S4096x64x64, .i32⟩
  | .hbm, ⟨47, _⟩ => ⟨S4096x64x64, .i32⟩
  | .hbm, ⟨48, _⟩ => ⟨S4096x64x64, .i1⟩
  | .hbm, ⟨49, _⟩ => ⟨S1x64x64, .i1⟩
  | .hbm, ⟨50, _⟩ => ⟨S4096x64x64, .i1⟩
  | .hbm, ⟨51, _⟩ => ⟨S4096x64x64, .i1⟩
  | .hbm, ⟨52, _⟩ => ⟨S_, .i1⟩
  | .hbm, ⟨53, _⟩ => ⟨S4096x64, .i1⟩
  | .hbm, ⟨54, _⟩ => ⟨S4096x64, .i1⟩
  | .hbm, ⟨55, _⟩ => ⟨S4096x1, .i32⟩
  | .hbm, ⟨56, _⟩ => ⟨S4096x64, .i32⟩
  | .hbm, ⟨57, _⟩ => ⟨S4096x64, .i1⟩
  | .hbm, ⟨58, _⟩ => ⟨S4096x64, .i1⟩
  | .hbm, ⟨59, _⟩ => ⟨S4096x64, .f32⟩
  | .hbm, ⟨60, _⟩ => ⟨S4096x64, .f32⟩
  | .hbm, ⟨61, _⟩ => ⟨S4096x64, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .local _ .vmem, ⟨0, _⟩ => ⟨S256x10000, .f32⟩
  | .local _ .vmem, ⟨1, _⟩ => ⟨S256x10000, .f32⟩
  | .local _ .vmem, ⟨2, _⟩ => ⟨S256x1, .f32⟩
  | .local _ .vmem, ⟨3, _⟩ => ⟨S256x1, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_1 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_2 : Ref sig .tc := ⟨.hbm, 67, rfl⟩
abbrev main_v39 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x10000_S256x10000_0_0 : ∀ a, (![0, 0] : Fin 2 → Nat) a + S256x10000.size a ≤ S256x10000.size a
  h_S256x10000 : 0 < S256x10000.numel
  reduces_S256x10000_S256 : S256x10000.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x1_S4096 : S4096x1.ShapeCasts S4096
  bcast_S4096_S4096x1_0 : S4096.BroadcastsInDim S4096x1 (![0] : Fin 1 → Fin S4096x1.rank)
  concatenates_S4096x1_S4096x64_S4096x65_d1 : Shape.Concatenates [S4096x1, S4096x64] S4096x65 1
  bcast_S_S4096x65 : S_.BroadcastsInDim S4096x65 (![] : Fin 0 → Fin S4096x65.rank)
  shapeCasts_S4096x65_S4096x65x1 : S4096x65.ShapeCasts S4096x65x1
  bcast_S_S4096x65x1 : S_.BroadcastsInDim S4096x65x1 (![] : Fin 0 → Fin S4096x65x1.rank)
  bcast_S1_S1x1x1_2 : S1.BroadcastsInDim S1x1x1 (![2] : Fin 1 → Fin S1x1x1.rank)
  bcast_S1x1x1_S4096x65x1_0_1_2 : S1x1x1.BroadcastsInDim S4096x65x1 (![0, 1, 2] : Fin 3 → Fin S4096x65x1.rank)
  reducesTo_S4096x65x1_S4096x65_d2 : S4096x65x1.ReducesTo [2] S4096x65
  h_S_ : 0 < S_.numel
  slices_S4096x65_S4096x1_0_0 : S4096x65.Slices ![0, 0] S4096x1
  slices_S4096x65_S4096x64_0_1 : S4096x65.Slices ![0, 1] S4096x64
  bcast_S_S4096 : S_.BroadcastsInDim S4096 (![] : Fin 0 → Fin S4096.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  bcast_S64x64_S1x64x64_1_2 : S64x64.BroadcastsInDim S1x64x64 (![1, 2] : Fin 2 → Fin S1x64x64.rank)
  bcast_S1x64x64_S4096x64x64_0_1_2 : S1x64x64.BroadcastsInDim S4096x64x64 (![0, 1, 2] : Fin 3 → Fin S4096x64x64.rank)
  reducesTo_S4096x64x64_S4096x64_d2 : S4096x64x64.ReducesTo [2] S4096x64
  bcast_S4096x1_S4096x64_0_1 : S4096x1.BroadcastsInDim S4096x64 (![0, 1] : Fin 2 → Fin S4096x64.rank)
  reducesTo_S4096x64_S4096_d1 : S4096x64.ReducesTo [1] S4096
  reducesTo_S4096_S_d0 : S4096.ReducesTo [0] S_
  gather_S4096x10000_S4096x65x1_S4096x65_n_1_0_0_1_2_11_wf : GatherDims.WF S4096x10000 S4096x65x1 S4096x65 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S4096x10000.size a
  hwx0_0 : ∀ i : grid0.Coords, EltTy.bits .f32 = 32 ∨ (Rect.block (s := S4096x10000) S256x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)

variable [Facts₀]

def gather_S4096x10000_S4096x65x1_S4096x65_n_1_0_0_1_2_11 : GatherDims S4096x10000 S4096x65x1 S4096x65 where
  offsetDims := []
  collapsedSliceDims := [1]
  operandBatchingDims := [0]
  startIndicesBatchingDims := [0]
  startIndexMap := [1]
  indexVectorDim := 2
  sliceSizes := ![1, 1]
  wf := gather_S4096x10000_S4096x65x1_S4096x65_n_1_0_0_1_2_11_wf

abbrev win0_0 : Pipeline.Window sig grid0 :=
  Pipeline.Window.ofSpec (Memref.whole main_arg0) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S4096 : Shape := ⟨1, ![4096]⟩
abbrev S4096x64 : Shape := ⟨2, ![4096, 64]⟩
abbrev S4096x1 : Shape := ⟨2, ![4096, 1]⟩
abbrev S_ : Shape := ⟨0, ![]⟩
abbrev S4096x64x1 : Shape := ⟨3, ![4096, 64, 1]⟩
abbrev S4096x64x2 : Shape := ⟨3, ![4096, 64, 2]⟩
abbrev S10000 : Shape := ⟨1, ![10000]⟩
abbrev S1x10000 : Shape := ⟨2, ![1, 10000]⟩

abbrev nBuf : Space → Nat
  | .hbm => 46
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096, .i32⟩
  | .hbm, ⟨2, _⟩ => ⟨S4096x64, .i32⟩
  | .hbm, ⟨3, _⟩ => ⟨S4096, .i32⟩
  | .hbm, ⟨4, _⟩ => ⟨S4096x1, .i32⟩
  | .hbm, ⟨5, _⟩ => ⟨S_, .i1⟩
  | .hbm, ⟨6, _⟩ => ⟨S4096x10000, .i1⟩
  | .hbm, ⟨7, _⟩ => ⟨S_, .i32⟩
  | .hbm, ⟨8, _⟩ => ⟨S4096x1, .i32⟩
  | .hbm, ⟨9, _⟩ => ⟨S4096x1, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S_, .i32⟩
  | .hbm, ⟨15, _⟩ => ⟨S4096x64, .i32⟩
  | .hbm, ⟨16, _⟩ => ⟨S4096x64, .i1⟩
  | .hbm, ⟨17, _⟩ => ⟨S_, .i32⟩
  | .hbm, ⟨18, _⟩ => ⟨S4096x64, .i32⟩
  | .hbm, ⟨19, _⟩ => ⟨S4096x64, .i32⟩
  | .hbm, ⟨20, _⟩ => ⟨S4096x64, .i32⟩
  | .hbm, ⟨21, _⟩ => ⟨S4096x64, .i32⟩
  | .hbm, ⟨22, _⟩ => ⟨S4096x64x1, .i32⟩
  | .hbm, ⟨23, _⟩ => ⟨S4096x64x1, .i32⟩
  | .hbm, ⟨24, _⟩ => ⟨S4096x64x2, .i32⟩
  | .hbm, ⟨25, _⟩ => ⟨S_, .i1⟩
  | .hbm, ⟨26, _⟩ => ⟨S4096x64, .i1⟩
  | .hbm, ⟨27, _⟩ => ⟨S4096x10000, .i1⟩
  | .hbm, ⟨28, _⟩ => ⟨S10000, .i32⟩
  | .hbm, ⟨29, _⟩ => ⟨S1x10000, .i32⟩
  | .hbm, ⟨30, _⟩ => ⟨S4096x1, .i32⟩
  | .hbm, ⟨31, _⟩ => ⟨S4096x10000, .i32⟩
  | .hbm, ⟨32, _⟩ => ⟨S4096x10000, .i32⟩
  | .hbm, ⟨33, _⟩ => ⟨S4096x10000, .i1⟩
  | .hbm, ⟨34, _⟩ => ⟨S_, .f32⟩
  | .hbm, ⟨35, _⟩ => ⟨S4096x10000, .f32⟩
  | .hbm, ⟨36, _⟩ => ⟨S4096x10000, .f32⟩
  | .hbm, ⟨37, _⟩ => ⟨S4096x10000, .f32⟩
  | .hbm, ⟨38, _⟩ => ⟨S4096x10000, .f32⟩
  | .hbm, ⟨39, _⟩ => ⟨S_, .f32⟩
  | .hbm, ⟨40, _⟩ => ⟨S_, .f32⟩
  | .hbm, ⟨41, _⟩ => ⟨S4096x10000, .f32⟩
  | .hbm, ⟨42, _⟩ => ⟨S4096x10000, .f32⟩
  | .hbm, ⟨43, _⟩ => ⟨S4096x10000, .f32⟩
  | .hbm, ⟨44, _⟩ => ⟨S_, .f32⟩
  | .hbm, ⟨45, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x10000 : S_.BroadcastsInDim S4096x10000 (![] : Fin 0 → Fin S4096x10000.rank)
  bcast_S_S4096x1 : S_.BroadcastsInDim S4096x1 (![] : Fin 0 → Fin S4096x1.rank)
  bcast_S_S4096x64 : S_.BroadcastsInDim S4096x64 (![] : Fin 0 → Fin S4096x64.rank)
  bcast_S4096x1_S4096x64_0_1 : S4096x1.BroadcastsInDim S4096x64 (![0, 1] : Fin 2 → Fin S4096x64.rank)
  bcast_S4096x64_S4096x64x1_0_1 : S4096x64.BroadcastsInDim S4096x64x1 (![0, 1] : Fin 2 → Fin S4096x64x1.rank)
  concatenates_S4096x64x1_S4096x64x1_S4096x64x2_d2 : Shape.Concatenates [S4096x64x1, S4096x64x1] S4096x64x2 2
  bcast_S10000_S1x10000_1 : S10000.BroadcastsInDim S1x10000 (![1] : Fin 1 → Fin S1x10000.rank)
  bcast_S1x10000_S4096x10000_0_1 : S1x10000.BroadcastsInDim S4096x10000 (![0, 1] : Fin 2 → Fin S4096x10000.rank)
  bcast_S4096x1_S4096x10000_0_1 : S4096x1.BroadcastsInDim S4096x10000 (![0, 1] : Fin 2 → Fin S4096x10000.rank)
  reducesTo_S4096x10000_S_d0_1 : S4096x10000.ReducesTo [0, 1] S_
  h_S_ : 0 < S_.numel
  scatter_S4096x10000_S4096x64x2_S4096x64_n_01_01_2_wf : ScatterDims.WF S4096x10000 S4096x64x2 S4096x64 [] [0, 1] [0, 1] 2

variable [Facts₀]

def scatter_S4096x10000_S4096x64x2_S4096x64_n_01_01_2 : ScatterDims S4096x10000 S4096x64x2 S4096x64 where
  updateWindowDims := []
  insertedWindowDims := [0, 1]
  scatterDimsToOperandDims := [0, 1]
  indexVectorDim := 2
  wf := scatter_S4096x10000_S4096x64x2_S4096x64_n_01_01_2_wf

class Facts : Prop extends Facts₀ where

variable [Facts]
-- ==== Proof.KFrame.lean ====
/-
  The frame run of the program around its one pipelined region, by the library's launch theorem for a region
  followed by host lines.

  The region computes, for each block of 256 rows of the [4096, 10000] input, the row sums of squares, and writes them
  to the block's 256 rows of a [4096, 1] array; the 65 host operations after it read that array and the arguments and
  write buffers of their own. Here: the contents at the region's entry (the launch contents: nothing precedes the
  region), the facts the launch theorem asks of the later lines (they touch unscoped TensorCore buffers only, allocate
  nothing, and write neither of the region's two arrays), what the body leaves in the output block (one store of the
  whole block: the row sums of squares of the input block), the body's triple, the proof data, the run, and from the
  run the frame claim: the three argument arrays end as launched, since no later line writes them.
-/
import proofs.«425376_j74869869904427_3_alg».proof.Proof.Gen.Kernel.Launch
import proofs.«425376_j74869869904427_3_alg».proof.Proof.Gen.Kernel.Skeleton
import proofs.«425376_j74869869904427_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The three stretches of host operations after the region. -/
abbrev tail : List (List (HloOp τ sig (Elt F))) := [hostOps1, hostOps1_1, hostOps1_2]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain

/-- An operation of the later lines is in one of the three stretches. -/
theorem mem_tail {op : HloOp τ sig (Elt F)} {ops : List (HloOp τ sig (Elt F))} (hops : ops ∈ (tail (F := F))) (hop : op ∈ ops) :
    op ∈ (hostOps1 : List (HloOp τ sig (Elt F))) ∨ op ∈ (hostOps1_1 : List (HloOp τ sig (Elt F))) ∨ op ∈ (hostOps1_2 : List (HloOp τ sig (Elt F))) := by
  simp only [tail, List.mem_cons, List.mem_nil_iff, or_false] at hops
  rcases hops with rfl | rfl | rfl
  · exact Or.inl hop
  · exact Or.inr (Or.inl hop)
  · exact Or.inr (Or.inr hop)

/-- The later lines touch the region's arrays and the buffers that bypass it only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tail hops hop with h | h | h
  · exact Pipeline.sub_ucRefs op ((List.forall_iff_forall_mem.mp hostOps1_sub) op h)
  · exact Pipeline.sub_ucRefs op ((List.forall_iff_forall_mem.mp hostOps1_1_sub) op h)
  · exact Pipeline.sub_ucRefs op ((List.forall_iff_forall_mem.mp hostOps1_2_sub) op h)

/-- They allocate nothing. -/
theorem sfx_fresh : ∀ ops ∈ (tail : List (List (HloOp τ sig (Elt F)))), ∀ op ∈ ops, op.fresh = ∅ := by
  intro ops hops op hop
  rcases mem_tail hops hop with h | h | h
  · exact (List.forall_iff_forall_mem.mp hostOps1_fresh) op h
  · exact (List.forall_iff_forall_mem.mp hostOps1_1_fresh) op h
  · exact (List.forall_iff_forall_mem.mp hostOps1_2_fresh) op h

/-- No later line writes the region's input array. -/
theorem keep_arg0 : ∀ op ∈ (tail : List (List (HloOp τ sig (Elt F)))).flatten, Proc.devRef .tc main_arg0 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))
/-- Nor its output array, -/
theorem keep_v0 : ∀ op ∈ (tail : List (List (HloOp τ sig (Elt F)))).flatten, Proc.devRef .tc main_v0 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))
/-- nor the two integer arguments. -/
theorem keep_arg1 : ∀ op ∈ (tail : List (List (HloOp τ sig (Elt F)))).flatten, Proc.devRef .tc main_arg1 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))
theorem keep_arg2 : ∀ op ∈ (tail : List (List (HloOp τ sig (Elt F)))).flatten, Proc.devRef .tc main_arg2 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

/-- The later lines write neither array of the region. -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail : List (List (HloOp τ sig (Elt F)))).flatten := List.mem_flatten.mpr ⟨ops, hops, hop⟩
  match w with
  | ⟨0, _⟩ => exact keep_arg0 op hmem
  | ⟨1, _⟩ => exact keep_v0 op hmem

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- An integer argument after the later lines is the argument as launched. -/
theorem W_main_arg1 (dats : (p : Fin 1) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ keep_arg1,
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) tail c main_arg2 = m ((c : Thread nD τ).loc main_arg2) := by
  unfold Pipeline.afterTail₀
  rw [StableHlo.after_of_forall_not_mem (b := Proc.devRef .tc main_arg2) _ _ keep_arg2,
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block, and its triple -/

abbrev rOut : Rect S256x1 := Rect.unit (s := S256x1) ![0, 0] S256x1.size inb_S256x1_S256x1_0_0
abbrev rIn : Rect S256x10000 := Rect.unit (s := S256x10000) ![0, 0] S256x10000.size inb_S256x10000_S256x10000_0_0

/-- The output block after the body: its one store, of the row sums of squares of the input block. -/
def out0_1 (x0 : Vec F S256x10000 .f32) : Vec F S256x1 .f32 :=
  View.canon [⟨rOut, k0_pay1 (View.ld x0 rIn)⟩]

/-- The store covers the block. -/
theorem cover0_1 (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

set_option maxHeartbeats 1000000 in
/-- The body on whole staging buffers, the input's at contents `x0` and the output's at anything, ends with the input's
    as it was and the output's at `out0_1 x0`. -/
theorem sound_kernel (c : Dev nD) (E : Set ℕ) (i : grid0.Coords) (arg1 : Memref sig .tc .vmem S256x10000 .f32) (harg1 : arg1.IsWhole) (arg2 : Memref sig .tc .vmem S256x1 .f32) (harg2 : arg2.IsWhole)
    (x0 : Vec F S256x10000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_sq_kernel i arg1 harg1 arg2 harg2) K := by
  simp only [cc0__rowsum_sq_kernel_eq_skeleton]; unfold cc0__rowsum_sq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The proof data of the pipeline on core `c`: the arrays as the region finds them; after the body at point `t` the
    input's buffer at its block and the output's at the row sums of squares of that block; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has the region's two arrays at what
    the write-backs leave and every other unscoped buffer as the later lines leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The three argument arrays are in the run's post as launched: the staged input by the write-back's fold, the two
    integer arguments because no later line writes them. -/
theorem restRefs_arg1 : main_arg1 ∈ Pipeline.restRefs sig spec0 := by decide
theorem restRefs_arg2 : main_arg2 ∈ Pipeline.restRefs sig spec0 := by decide

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 restRefs_arg1).trans (W_main_arg1 m (dats m) c),
      ((h c).2 main_arg2 restRefs_arg2).trans (W_main_arg2 m (dats m) c)⟩) (run_main m ρ)

end Cert.Kernel.HFrame

end
-- ==== Proof.KIFrame.lean ====
/-
  The frame run of the program around its one pipelined region, by the library's launch theorem for a region
  followed by host lines.

  The region computes, for each block of 256 rows of the [4096, 10000] input, the row sums of squares, and writes them
  to the block's 256 rows of a [4096, 1] array; the 65 host operations after it read that array and the arguments and
  write buffers of their own. Here: the contents at the region's entry (the launch contents: nothing precedes the
  region), the facts the launch theorem asks of the later lines (they touch unscoped TensorCore buffers only, allocate
  nothing, and write neither of the region's two arrays), what the body leaves in the output block (one store of the
  whole block: the row sums of squares of the input block), the body's triple, the proof data, the run, and from the
  run the frame claim: the three argument arrays end as launched, since no later line writes them.
-/
import proofs.«425376_j74869869904427_3_alg».proof.Proof.Gen.KernelIdeal.Launch
import proofs.«425376_j74869869904427_3_alg».proof.Proof.Gen.KernelIdeal.Skeleton
import proofs.«425376_j74869869904427_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The three stretches of host operations after the region. -/
abbrev tail : List (List (HloOp τ sig (Elt F))) := [hostOps1, hostOps1_1, hostOps1_2]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain

/-- An operation of the later lines is in one of the three stretches. -/
theorem mem_tail {op : HloOp τ sig (Elt F)} {ops : List (HloOp τ sig (Elt F))} (hops : ops ∈ (tail (F := F))) (hop : op ∈ ops) :
    op ∈ (hostOps1 : List (HloOp τ sig (Elt F))) ∨ op ∈ (hostOps1_1 : List (HloOp τ sig (Elt F))) ∨ op ∈ (hostOps1_2 : List (HloOp τ sig (Elt F))) := by
  simp only [tail, List.mem_cons, List.mem_nil_iff, or_false] at hops
  rcases hops with rfl | rfl | rfl
  · exact Or.inl hop
  · exact Or.inr (Or.inl hop)
  · exact Or.inr (Or.inr hop)

/-- The later lines touch the region's arrays and the buffers that bypass it only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tail hops hop with h | h | h
  · exact Pipeline.sub_ucRefs op ((List.forall_iff_forall_mem.mp hostOps1_sub) op h)
  · exact Pipeline.sub_ucRefs op ((List.forall_iff_forall_mem.mp hostOps1_1_sub) op h)
  · exact Pipeline.sub_ucRefs op ((List.forall_iff_forall_mem.mp hostOps1_2_sub) op h)

/-- They allocate nothing. -/
theorem sfx_fresh : ∀ ops ∈ (tail : List (List (HloOp τ sig (Elt F)))), ∀ op ∈ ops, op.fresh = ∅ := by
  intro ops hops op hop
  rcases mem_tail hops hop with h | h | h
  · exact (List.forall_iff_forall_mem.mp hostOps1_fresh) op h
  · exact (List.forall_iff_forall_mem.mp hostOps1_1_fresh) op h
  · exact (List.forall_iff_forall_mem.mp hostOps1_2_fresh) op h

/-- No later line writes the region's input array. -/
theorem keep_arg0 : ∀ op ∈ (tail : List (List (HloOp τ sig (Elt F)))).flatten, Proc.devRef .tc main_arg0 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))
/-- Nor its output array, -/
theorem keep_v0 : ∀ op ∈ (tail : List (List (HloOp τ sig (Elt F)))).flatten, Proc.devRef .tc main_v0 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))
/-- nor the two integer arguments. -/
theorem keep_arg1 : ∀ op ∈ (tail : List (List (HloOp τ sig (Elt F)))).flatten, Proc.devRef .tc main_arg1 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))
theorem keep_arg2 : ∀ op ∈ (tail : List (List (HloOp τ sig (Elt F)))).flatten, Proc.devRef .tc main_arg2 ∉ op.writes :=
  List.forall_iff_forall_mem.mp (by
    simp only [tail, hostOps1, hostOps1_1, hostOps1_2, StableHlo.TRef.nullary, StableHlo.TRef.unary, StableHlo.TRef.binary, StableHlo.TRef.ternary, StableHlo.TRef.reshape,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

/-- The later lines write neither array of the region. -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail : List (List (HloOp τ sig (Elt F)))).flatten := List.mem_flatten.mpr ⟨ops, hops, hop⟩
  match w with
  | ⟨0, _⟩ => exact keep_arg0 op hmem
  | ⟨1, _⟩ => exact keep_v0 op hmem

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- An integer argument after the later lines is the argument as launched. -/
theorem W_main_arg1 (dats : (p : Fin 1) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ keep_arg1,
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) tail c main_arg2 = m ((c : Thread nD τ).loc main_arg2) := by
  unfold Pipeline.afterTail₀
  rw [StableHlo.after_of_forall_not_mem (b := Proc.devRef .tc main_arg2) _ _ keep_arg2,
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block, and its triple -/

abbrev rOut : Rect S256x1 := Rect.unit (s := S256x1) ![0, 0] S256x1.size inb_S256x1_S256x1_0_0
abbrev rIn : Rect S256x10000 := Rect.unit (s := S256x10000) ![0, 0] S256x10000.size inb_S256x10000_S256x10000_0_0

/-- The output block after the body: its one store, of the row sums of squares of the input block. -/
def out0_1 (x0 : Vec F S256x10000 .f32) : Vec F S256x1 .f32 :=
  View.canon [⟨rOut, k0_pay1 (View.ld x0 rIn)⟩]

/-- The store covers the block. -/
theorem cover0_1 (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

set_option maxHeartbeats 1000000 in
/-- The body on whole staging buffers, the input's at contents `x0` and the output's at anything, ends with the input's
    as it was and the output's at `out0_1 x0`. -/
theorem sound_kernel (c : Dev nD) (E : Set ℕ) (i : grid0.Coords) (arg1 : Memref sig .tc .vmem S256x10000 .f32) (harg1 : arg1.IsWhole) (arg2 : Memref sig .tc .vmem S256x1 .f32) (harg2 : arg2.IsWhole)
    (x0 : Vec F S256x10000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_sq_kernel i arg1 harg1 arg2 harg2) K := by
  simp only [cc0__rowsum_sq_kernel_eq_skeleton]; unfold cc0__rowsum_sq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The proof data of the pipeline on core `c`: the arrays as the region finds them; after the body at point `t` the
    input's buffer at its block and the output's at the row sums of squares of that block; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has the region's two arrays at what
    the write-backs leave and every other unscoped buffer as the later lines leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The three argument arrays are in the run's post as launched: the staged input by the write-back's fold, the two
    integer arguments because no later line writes them. -/
theorem restRefs_arg1 : main_arg1 ∈ Pipeline.restRefs sig spec0 := by decide
theorem restRefs_arg2 : main_arg2 ∈ Pipeline.restRefs sig spec0 := by decide

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 restRefs_arg1).trans (W_main_arg1 m (dats m) c),
      ((h c).2 main_arg2 restRefs_arg2).trans (W_main_arg2 m (dats m) c)⟩) (run_main m ρ)

end Cert.KernelIdeal.HFrame

end
-- ==== Proof.KernelStages.lean ====
/-
  The host operations that follow the kernel's one custom call, one operation at a time: `kv_<buffer>` is the value
  the operation writes, as a function of the row sums of squares `rows` and of the three arguments (x0 the input,
  x1 the target classes, x2 the don't-care classes).

  The first three operations build the index array (the target column followed by the 64 don't-care columns); the
  next 22 are the inlined take-along-axis (index normalisation, range mask, gather, masked select); the last 40 form,
  per row, rows + (1 - 2·g₀) - Σ_j g_{j+1}²·keep_j and sum the rows.
-/
import proofs.«425376_j74869869904427_3_alg».proof.Proof.Gen.KernelIdeal
import Idealize.ShloMosaic.Lib.StableHlo.Run
import Idealize.ShloMosaic.Lib.Pipeline.Value

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

def kv_main_v1 (rows : (⟨S4096x1, .f32⟩ : BufTy).Contents (Elt F)) : (⟨S4096, .f32⟩ : BufTy).Contents (Elt F) :=
  shapeCast S4096 (rows) shapeCasts_S4096x1_S4096

def kv_main_v2 (x1 : (⟨S4096, .i32⟩ : BufTy).Contents (Elt F)) : (⟨S4096x1, .i32⟩ : BufTy).Contents (Elt F) :=
  broadcastInDim S4096x1 ![0] bcast_S4096_S4096x1_0 (x1)

def kv_main_v3 (x1 : (⟨S4096, .i32⟩ : BufTy).Contents (Elt F)) (x2 : (⟨S4096x64, .i32⟩ : BufTy).Contents (Elt F)) : (⟨S4096x65, .i32⟩ : BufTy).Contents (Elt F) :=
  concatenate S4096x65 1 [⟨S4096x1, (kv_main_v2 (F := F) x1)⟩, ⟨S4096x64, (x2)⟩] concatenates_S4096x1_S4096x64_S4096x65_d1

def kv_main_call0_c : (⟨S_, .i32⟩ : BufTy).Contents (Elt F) :=
  constantI S_ 32 0#32

def kv_main_call0_v0 : (⟨S4096x65, .i32⟩ : BufTy).Contents (Elt F) :=
  broadcastInDim S4096x65 ![] bcast_S_S4096x65 (kv_main_call0_c (F := F))

def kv_main_call0_v1 (x1 : (⟨S4096, .i32⟩ : BufTy).Contents (Elt F)) (x2 : (⟨S4096x64, .i32⟩ : BufTy).Contents (Elt F)) : (⟨S4096x65, .i1⟩ : BufTy).Contents (Elt F) :=
  cmpi .slt (kv_main_v3 (F := F) x1 x2) (kv_main_call0_v0 (F := F))

def kv_main_call0_c_0 : (⟨S_, .i32⟩ : BufTy).Contents (Elt F) :=
  constantI S_ 32 10000#32

def kv_main_call0_v2 : (⟨S4096x65, .i32⟩ : BufTy).Contents (Elt F) :=
  broadcastInDim S4096x65 ![] bcast_S_S4096x65 (kv_main_call0_c_0 (F := F))

def kv_main_call0_v3 (x1 : (⟨S4096, .i32⟩ : BufTy).Contents (Elt F)) (x2 : (⟨S4096x64, .i32⟩ : BufTy).Contents (Elt F)) : (⟨S4096x65, .i32⟩ : BufTy).Contents (Elt F) :=
  addi (kv_main_v3 (F := F) x1 x2) (kv_main_call0_v2 (F := F))

def kv_main_call0_v4 (x1 : (⟨S4096, .i32⟩ : BufTy).Contents (Elt F)) (x2 : (⟨S4096x64, .i32⟩ : BufTy).Contents (Elt F)) : (⟨S4096x65, .i32⟩ : BufTy).Contents (Elt F) :=
  select (kv_main_call0_v1 (F := F) x1 x2) (kv_main_call0_v3 (F := F) x1 x2) (kv_main_v3 (F := F) x1 x2)

def kv_main_call0_v5 (x1 : (⟨S4096, .i32⟩ : BufTy).Contents (Elt F)) (x2 : (⟨S4096x64, .i32⟩ : BufTy).Contents (Elt F)) : (⟨S4096x65x1, .i32⟩ : BufTy).Contents (Elt F) :=
  shapeCast S4096x65x1 (kv_main_call0_v4 (F := F) x1 x2) shapeCasts_S4096x65_S4096x65x1

def kv_main_call0_c_1 : (⟨S1, .i32⟩ : BufTy).Contents (Elt F) :=
  constantI S1 32 9999#32

def kv_main_call0_c_2 : (⟨S_, .i32⟩ : BufTy).Contents (Elt F) :=
  constantI S_ 32 0#32

def kv_main_call0_v6 : (⟨S4096x65x1, .i32⟩ : BufTy).Contents (Elt F) :=
  broadcastInDim S4096x65x1 ![] bcast_S_S4096x65x1 (kv_main_call0_c_2 (F := F))

def kv_main_call0_v7 (x1 : (⟨S4096, .i32⟩ : BufTy).Contents (Elt F)) (x2 : (⟨S4096x64, .i32⟩ : BufTy).Contents (Elt F)) : (⟨S4096x65x1, .i1⟩ : BufTy).Contents (Elt F) :=
  cmpi .sge (kv_main_call0_v5 (F := F) x1 x2) (kv_main_call0_v6 (F := F))

def kv_main_call0_v8 : (⟨S1x1x1, .i32⟩ : BufTy).Contents (Elt F) :=
  broadcastInDim S1x1x1 ![2] bcast_S1_S1x1x1_2 (kv_main_call0_c_1 (F := F))

def kv_main_call0_v9 : (⟨S4096x65x1, .i32⟩ : BufTy).Contents (Elt F) :=
  broadcastInDim S4096x65x1 ![0, 1, 2] bcast_S1x1x1_S4096x65x1_0_1_2 (kv_main_call0_v8 (F := F))

def kv_main_call0_v10 (x1 : (⟨S4096, .i32⟩ : BufTy).Contents (Elt F)) (x2 : (⟨S4096x64, .i32⟩ : BufTy).Contents (Elt F)) : (⟨S4096x65x1, .i1⟩ : BufTy).Contents (Elt F) :=
  cmpi .sle (kv_main_call0_v5 (F := F) x1 x2) (kv_main_call0_v9 (F := F))

def kv_main_call0_v11 (x1 : (⟨S4096, .i32⟩ : BufTy).Contents (Elt F)) (x2 : (⟨S4096x64, .i32⟩ : BufTy).Contents (Elt F)) : (⟨S4096x65x1, .i1⟩ : BufTy).Contents (Elt F) :=
  andi (kv_main_call0_v7 (F := F) x1 x2) (kv_main_call0_v10 (F := F) x1 x2)

def kv_main_call0_c_3 : (⟨S_, .i1⟩ : BufTy).Contents (Elt F) :=
  constantI S_ 1 1#1

def kv_main_call0_v12 (x1 : (⟨S4096, .i32⟩ : BufTy).Contents (Elt F)) (x2 : (⟨S4096x64, .i32⟩ : BufTy).Contents (Elt F)) : (⟨S4096x65, .i1⟩ : BufTy).Contents (Elt F) :=
  Host.reduce IntOp.andi (kv_main_call0_v11 (F := F) x1 x2) (kv_main_call0_c_3 (F := F)) reducesTo_S4096x65x1_S4096x65_d2 h_S_

def kv_main_call0_v13 (x0 : (⟨S4096x10000, .f32⟩ : BufTy).Contents (Elt F)) (x1 : (⟨S4096, .i32⟩ : BufTy).Contents (Elt F)) (x2 : (⟨S4096x64, .i32⟩ : BufTy).Contents (Elt F)) : (⟨S4096x65, .f32⟩ : BufTy).Contents (Elt F) :=
  Host.gather gather_S4096x10000_S4096x65x1_S4096x65_n_1_0_0_1_2_11 (x0) (kv_main_call0_v5 (F := F) x1 x2)

def kv_main_call0_cst : (⟨S_, .f32⟩ : BufTy).Contents (Elt F) :=
  constant S_ .f32 0x7FC00000#32

def kv_main_call0_v14 : (⟨S4096x65, .f32⟩ : BufTy).Contents (Elt F) :=
  broadcastInDim S4096x65 ![] bcast_S_S4096x65 (kv_main_call0_cst (F := F))

def kv_main_v4 (x0 : (⟨S4096x10000, .f32⟩ : BufTy).Contents (Elt F)) (x1 : (⟨S4096, .i32⟩ : BufTy).Contents (Elt F)) (x2 : (⟨S4096x64, .i32⟩ : BufTy).Contents (Elt F)) : (⟨S4096x65, .f32⟩ : BufTy).Contents (Elt F) :=
  select (kv_main_call0_v12 (F := F) x1 x2) (kv_main_call0_v13 (F := F) x0 x1 x2) (kv_main_call0_v14 (F := F))

def kv_main_v5 (x0 : (⟨S4096x10000, .f32⟩ : BufTy).Contents (Elt F)) (x1 : (⟨S4096, .i32⟩ : BufTy).Contents (Elt F)) (x2 : (⟨S4096x64, .i32⟩ : BufTy).Contents (Elt F)) : (⟨S4096x1, .f32⟩ : BufTy).Contents (Elt F) :=
  extractStridedSlice S4096x1 ![0, 0] (kv_main_v4 (F := F) x0 x1 x2) slices_S4096x65_S4096x1_0_0

def kv_main_v6 (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  shapeCast S4096 (kv_main_v5 (F := F) x0 x1 x2) shapeCasts_S4096x1_S4096

def kv_main_v7 (x0 : (⟨S4096x10000, .f32⟩ : BufTy).Contents (Elt F)) (x1 : (⟨S4096, .i32⟩ : BufTy).Contents (Elt F)) (x2 : (⟨S4096x64, .i32⟩ : BufTy).Contents (Elt F)) : (⟨S4096x64, .f32⟩ : BufTy).Contents (Elt F) :=
  extractStridedSlice S4096x64 ![0, 1] (kv_main_v4 (F := F) x0 x1 x2) slices_S4096x65_S4096x64_0_1

def kv_main_cst : (⟨S_, .f32⟩ : BufTy).Contents (Elt F) :=
  constant S_ .f32 0x40000000#32

def kv_main_v8 : (⟨S4096, .f32⟩ : BufTy).Contents (Elt F) :=
  broadcastInDim S4096 ![] bcast_S_S4096 (kv_main_cst (F := F))

def kv_main_v9 (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  mulf (kv_main_v8 (F := F)) (kv_main_v6 (F := F) x0 x1 x2)

def kv_main_cst_0 : (⟨S_, .f32⟩ : BufTy).Contents (Elt F) :=
  constant S_ .f32 0x3F800000#32

def kv_main_v10 : (⟨S4096, .f32⟩ : BufTy).Contents (Elt F) :=
  broadcastInDim S4096 ![] bcast_S_S4096 (kv_main_cst_0 (F := F))

def kv_main_v11 (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  subf (kv_main_v10 (F := F)) (kv_main_v9 (F := F) x0 x1 x2)

def kv_main_v12 : (⟨S64, .i32⟩ : BufTy).Contents (Elt F) :=
  iotaInDim S64 32 0

def kv_main_v13 : (⟨S64x1, .i32⟩ : BufTy).Contents (Elt F) :=
  broadcastInDim S64x1 ![0] bcast_S64_S64x1_0 (kv_main_v12 (F := F))

def kv_main_v14 : (⟨S1x64, .i32⟩ : BufTy).Contents (Elt F) :=
  broadcastInDim S1x64 ![1] bcast_S64_S1x64_1 (kv_main_v12 (F := F))

def kv_main_v15 : (⟨S64x64, .i32⟩ : BufTy).Contents (Elt F) :=
  broadcastInDim S64x64 ![0, 1] bcast_S64x1_S64x64_0_1 (kv_main_v13 (F := F))

def kv_main_v16 : (⟨S64x64, .i32⟩ : BufTy).Contents (Elt F) :=
  broadcastInDim S64x64 ![0, 1] bcast_S1x64_S64x64_0_1 (kv_main_v14 (F := F))

def kv_main_v17 : (⟨S64x64, .i1⟩ : BufTy).Contents (Elt F) :=
  cmpi .sgt (kv_main_v15 (F := F)) (kv_main_v16 (F := F))

def kv_main_v18 (x2 : (⟨S4096x64, .i32⟩ : BufTy).Contents (Elt F)) : (⟨S4096x64x1, .i32⟩ : BufTy).Contents (Elt F) :=
  broadcastInDim S4096x64x1 ![0, 1] bcast_S4096x64_S4096x64x1_0_1 (x2)

def kv_main_v19 (x2 : (⟨S4096x64, .i32⟩ : BufTy).Contents (Elt F)) : (⟨S4096x1x64, .i32⟩ : BufTy).Contents (Elt F) :=
  broadcastInDim S4096x1x64 ![0, 2] bcast_S4096x64_S4096x1x64_0_2 (x2)

def kv_main_v20 (x2 : (⟨S4096x64, .i32⟩ : BufTy).Contents (Elt F)) : (⟨S4096x64x64, .i32⟩ : BufTy).Contents (Elt F) :=
  broadcastInDim S4096x64x64 ![0, 1, 2] bcast_S4096x64x1_S4096x64x64_0_1_2 (kv_main_v18 (F := F) x2)

def kv_main_v21 (x2 : (⟨S4096x64, .i32⟩ : BufTy).Contents (Elt F)) : (⟨S4096x64x64, .i32⟩ : BufTy).Contents (Elt F) :=
  broadcastInDim S4096x64x64 ![0, 1, 2] bcast_S4096x1x64_S4096x64x64_0_1_2 (kv_main_v19 (F := F) x2)

def kv_main_v22 (x2 : (⟨S4096x64, .i32⟩ : BufTy).Contents (Elt F)) : (⟨S4096x64x64, .i1⟩ : BufTy).Contents (Elt F) :=
  cmpi .eq (kv_main_v20 (F := F) x2) (kv_main_v21 (F := F) x2)

def kv_main_v23 : (⟨S1x64x64, .i1⟩ : BufTy).Contents (Elt F) :=
  broadcastInDim S1x64x64 ![1, 2] bcast_S64x64_S1x64x64_1_2 (kv_main_v17 (F := F))

def kv_main_v24 : (⟨S4096x64x64, .i1⟩ : BufTy).Contents (Elt F) :=
  broadcastInDim S4096x64x64 ![0, 1, 2] bcast_S1x64x64_S4096x64x64_0_1_2 (kv_main_v23 (F := F))

def kv_main_v25 (x2 : (⟨S4096x64, .i32⟩ : BufTy).Contents (Elt F)) : (⟨S4096x64x64, .i1⟩ : BufTy).Contents (Elt F) :=
  andi (kv_main_v22 (F := F) x2) (kv_main_v24 (F := F))

def kv_main_c : (⟨S_, .i1⟩ : BufTy).Contents (Elt F) :=
  constantI S_ 1 0#1

def kv_main_v26 (x2 : (⟨S4096x64, .i32⟩ : BufTy).Contents (Elt F)) : (⟨S4096x64, .i1⟩ : BufTy).Contents (Elt F) :=
  Host.reduce IntOp.ori (kv_main_v25 (F := F) x2) (kv_main_c (F := F)) reducesTo_S4096x64x64_S4096x64_d2 h_S_

def kv_main_v27 (x2 : (⟨S4096x64, .i32⟩ : BufTy).Contents (Elt F)) : (⟨S4096x64, .i1⟩ : BufTy).Contents (Elt F) :=
  noti (kv_main_v26 (F := F) x2)

def kv_main_v28 (x1 : (⟨S4096, .i32⟩ : BufTy).Contents (Elt F)) : (⟨S4096x1, .i32⟩ : BufTy).Contents (Elt F) :=
  broadcastInDim S4096x1 ![0] bcast_S4096_S4096x1_0 (x1)

def kv_main_v29 (x1 : (⟨S4096, .i32⟩ : BufTy).Contents (Elt F)) : (⟨S4096x64, .i32⟩ : BufTy).Contents (Elt F) :=
  broadcastInDim S4096x64 ![0, 1] bcast_S4096x1_S4096x64_0_1 (kv_main_v28 (F := F) x1)

def kv_main_v30 (x1 : (⟨S4096, .i32⟩ : BufTy).Contents (Elt F)) (x2 : (⟨S4096x64, .i32⟩ : BufTy).Contents (Elt F)) : (⟨S4096x64, .i1⟩ : BufTy).Contents (Elt F) :=
  cmpi .ne (x2) (kv_main_v29 (F := F) x1)

def kv_main_v31 (x1 : (⟨S4096, .i32⟩ : BufTy).Contents (Elt F)) (x2 : (⟨S4096x64, .i32⟩ : BufTy).Contents (Elt F)) : (⟨S4096x64, .i1⟩ : BufTy).Contents (Elt F) :=
  andi (kv_main_v27 (F := F) x2) (kv_main_v30 (F := F) x1 x2)

def kv_main_v32 (x0 : (⟨S4096x10000, .f32⟩ : BufTy).Contents (Elt F)) (x1 : (⟨S4096, .i32⟩ : BufTy).Contents (Elt F)) (x2 : (⟨S4096x64, .i32⟩ : BufTy).Contents (Elt F)) : (⟨S4096x64, .f32⟩ : BufTy).Contents (Elt F) :=
  mulf (kv_main_v7 (F := F) x0 x1 x2) (kv_main_v7 (F := F) x0 x1 x2)

def kv_main_v33 (x1 : (⟨S4096, .i32⟩ : BufTy).Contents (Elt F)) (x2 : (⟨S4096x64, .i32⟩ : BufTy).Contents (Elt F)) : (⟨S4096x64, .f32⟩ : BufTy).Contents (Elt F) :=
  uitofp .f32 (kv_main_v31 (F := F) x1 x2)

def kv_main_v34 (x0 : (⟨S4096x10000, .f32⟩ : BufTy).Contents (Elt F)) (x1 : (⟨S4096, .i32⟩ : BufTy).Contents (Elt F)) (x2 : (⟨S4096x64, .i32⟩ : BufTy).Contents (Elt F)) : (⟨S4096x64, .f32⟩ : BufTy).Contents (Elt F) :=
  mulf (kv_main_v32 (F := F) x0 x1 x2) (kv_main_v33 (F := F) x1 x2)

def kv_main_cst_1 : (⟨S_, .f32⟩ : BufTy).Contents (Elt F) :=
  constant S_ .f32 0x00000000#32

def kv_main_v35 (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  Host.reduceAdd (kv_main_v34 (F := F) x0 x1 x2) (kv_main_cst_1 (F := F)) reducesTo_S4096x64_S4096_d1 h_S_

def kv_main_v36 (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  Host.negf (kv_main_v35 (F := F) x0 x1 x2)

def kv_main_v37 (rows : (⟨S4096x1, .f32⟩ : BufTy).Contents (Elt F)) (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  addf (kv_main_v1 (F := F) rows) (kv_main_v11 (F := F) x0 x1 x2)

def kv_main_v38 (rows : (⟨S4096x1, .f32⟩ : BufTy).Contents (Elt F)) (x0 : (⟨S4096x10000, .f32⟩ : BufTy).Contents (Elt F)) (x1 : (⟨S4096, .i32⟩ : BufTy).Contents (Elt F)) (x2 : (⟨S4096x64, .i32⟩ : BufTy).Contents (Elt F)) : (⟨S4096, .f32⟩ : BufTy).Contents (Elt F) :=
  addf (kv_main_v37 (F := F) rows x0 x1 x2) (kv_main_v36 (F := F) x0 x1 x2)

def kv_main_cst_2 : (⟨S_, .f32⟩ : BufTy).Contents (Elt F) :=
  constant S_ .f32 0x00000000#32

def kv_main_v39 (rows : (⟨S4096x1, .f32⟩ : BufTy).Contents (Elt F)) (x0 : (⟨S4096x10000, .f32⟩ : BufTy).Contents (Elt F)) (x1 : (⟨S4096, .i32⟩ : BufTy).Contents (Elt F)) (x2 : (⟨S4096x64, .i32⟩ : BufTy).Contents (Elt F)) : (⟨S_, .f32⟩ : BufTy).Contents (Elt F) :=
  Host.reduceAdd (kv_main_v38 (F := F) rows x0 x1 x2) (kv_main_cst_2 (F := F)) reducesTo_S4096_S_d0 h_S_

end Cert.KernelIdeal.Stages

end
-- ==== Proof.KITail.lean ====
/-
  The 65 host operations that follow the kernel program's one custom call, read back as the stage
  functions of the row sums of squares and of the three arguments.

  The operations are cut into four stretches: the reshape of the row sums and the broadcast of the
  target classes; the concatenation of that broadcast with the don't-care classes; the 22 operations
  of the take-along-axis; the last 40. The fold over the whole list from contents W is the fold over
  each stretch from the fold over the ones before it. What a stretch leaves at the buffers the later
  stretches read is computed over arbitrary contents of which only the values at the buffers the
  stretch reads are known, so that the concatenation's operands are atoms when it is met.
-/
import proofs.«425376_j74869869904427_3_alg».proof.Proof.Gen.KernelIdeal.Launch
import proofs.«425376_j74869869904427_3_alg».proof.Proof.KernelStages
import Idealize.ShloMosaic.Lib.StableHlo.Run

noncomputable section

namespace Cert.KernelIdeal.HTail

open Cert.KernelIdeal Cert.KernelIdeal.Gen Idealize.ShloMosaic Idealize.ShloMosaic.TcCoe Idealize.SL.Sem Idealize.ShloMosaic.StableHlo
open Cert.KernelIdeal.Stages

variable {F : FTy → Type} [FloatOps F]

/-- The fold over a concatenation is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The first stretch: the reshape of the row sums and the broadcast of the target classes -/

abbrev opsS1 : List (HloOp τ sig (Elt F)) :=
  [ StableHlo.reshape main_v0 main_v1 rfl shapeCasts_S4096x1_S4096,
    StableHlo.unary main_arg1 main_v2 (broadcastInDim S4096x1 ![0] bcast_S4096_S4096x1_0 : (⟨S4096, .i32⟩ : BufTy).Contents (Elt F) → (⟨S4096x1, .i32⟩ : BufTy).Contents (Elt F)) ]

/-- The second stretch: the concatenation alone. -/
abbrev opsS2 : List (HloOp τ sig (Elt F)) :=
  [ StableHlo.binary main_v2 main_arg2 main_v3 ((fun a b => concatenate S4096x65 1 [⟨S4096x1, a⟩, ⟨S4096x64, b⟩] concatenates_S4096x1_S4096x64_S4096x65_d1) : (⟨S4096x1, .i32⟩ : BufTy).Contents (Elt F) → (⟨S4096x64, .i32⟩ : BufTy).Contents (Elt F) → (⟨S4096x65, .i32⟩ : BufTy).Contents (Elt F)) ]

theorem hostOps1_split : (hostOps1 : List (HloOp τ sig (Elt F))) = opsS1 ++ opsS2 := rfl

theorem S1_v1 (V : Valuation τ sig (Elt F)) :
    after opsS1 V (Proc.devRef .tc main_v1) = kv_main_v1 (F := F) (V (Proc.devRef .tc main_v0)) := by
  after_results_simp <;> rfl

theorem S1_v2 (V : Valuation τ sig (Elt F)) :
    after opsS1 V (Proc.devRef .tc main_v2) = kv_main_v2 (F := F) (V (Proc.devRef .tc main_arg1)) := by
  after_results_simp <;> rfl

theorem S1_arg0 (V : Valuation τ sig (Elt F)) :
    after opsS1 V (Proc.devRef .tc main_arg0) = V (Proc.devRef .tc main_arg0) := by
  after_results_simp <;> rfl

theorem S1_arg1 (V : Valuation τ sig (Elt F)) :
    after opsS1 V (Proc.devRef .tc main_arg1) = V (Proc.devRef .tc main_arg1) := by
  after_results_simp <;> rfl

theorem S1_arg2 (V : Valuation τ sig (Elt F)) :
    after opsS1 V (Proc.devRef .tc main_arg2) = V (Proc.devRef .tc main_arg2) := by
  after_results_simp <;> rfl

/-! ## The second stretch -/

theorem S2_v3 (V : Valuation τ sig (Elt F))
    (x1 : (⟨S4096, .i32⟩ : BufTy).Contents (Elt F)) (x2 : (⟨S4096x64, .i32⟩ : BufTy).Contents (Elt F))
    (h2 : V (Proc.devRef .tc main_v2) = kv_main_v2 (F := F) x1)
    (ha2 : V (Proc.devRef .tc main_arg2) = x2) :
    after opsS2 V (Proc.devRef .tc main_v3) = kv_main_v3 (F := F) x1 x2 := by
  after_results_simp
  rw [h2, ha2]
  rfl

theorem S2_v1 (V : Valuation τ sig (Elt F)) :
    after opsS2 V (Proc.devRef .tc main_v1) = V (Proc.devRef .tc main_v1) := by
  after_results_simp <;> rfl

theorem S2_arg0 (V : Valuation τ sig (Elt F)) :
    after opsS2 V (Proc.devRef .tc main_arg0) = V (Proc.devRef .tc main_arg0) := by
  after_results_simp <;> rfl

theorem S2_arg1 (V : Valuation τ sig (Elt F)) :
    after opsS2 V (Proc.devRef .tc main_arg1) = V (Proc.devRef .tc main_arg1) := by
  after_results_simp <;> rfl

theorem S2_arg2 (V : Valuation τ sig (Elt F)) :
    after opsS2 V (Proc.devRef .tc main_arg2) = V (Proc.devRef .tc main_arg2) := by
  after_results_simp <;> rfl

/-! ## The third stretch: the take-along-axis -/

set_option maxRecDepth 8192 in
theorem S3_v1 (V : Valuation τ sig (Elt F)) :
    after hostOps1_1 V (Proc.devRef .tc main_v1) = V (Proc.devRef .tc main_v1) := by
  after_results_simp <;> rfl

set_option maxRecDepth 8192 in
theorem S3_arg1 (V : Valuation τ sig (Elt F)) :
    after hostOps1_1 V (Proc.devRef .tc main_arg1) = V (Proc.devRef .tc main_arg1) := by
  after_results_simp <;> rfl

set_option maxRecDepth 8192 in
theorem S3_arg2 (V : Valuation τ sig (Elt F)) :
    after hostOps1_1 V (Proc.devRef .tc main_arg2) = V (Proc.devRef .tc main_arg2) := by
  after_results_simp <;> rfl

set_option maxRecDepth 8192 in
set_option maxHeartbeats 1000000 in
theorem S3_v4 (V : Valuation τ sig (Elt F))
    (x0 : (⟨S4096x10000, .f32⟩ : BufTy).Contents (Elt F)) (x1 : (⟨S4096, .i32⟩ : BufTy).Contents (Elt F))
    (x2 : (⟨S4096x64, .i32⟩ : BufTy).Contents (Elt F))
    (h3 : V (Proc.devRef .tc main_v3) = kv_main_v3 (F := F) x1 x2)
    (h0 : V (Proc.devRef .tc main_arg0) = x0) :
    after hostOps1_1 V (Proc.devRef .tc main_v4) = kv_main_v4 (F := F) x0 x1 x2 := by
  after_results_simp
  simp only [TRef.ofBuf, TRef.toBuf, cast_eq]
  rw [h3, h0]
  rfl

/-! ## The fourth stretch: the last 40 operations -/

set_option maxRecDepth 8192 in
set_option maxHeartbeats 1000000 in
theorem S4_v39 (V : Valuation τ sig (Elt F))
    (rows : (⟨S4096x1, .f32⟩ : BufTy).Contents (Elt F))
    (x0 : (⟨S4096x10000, .f32⟩ : BufTy).Contents (Elt F)) (x1 : (⟨S4096, .i32⟩ : BufTy).Contents (Elt F))
    (x2 : (⟨S4096x64, .i32⟩ : BufTy).Contents (Elt F))
    (h1 : V (Proc.devRef .tc main_v1) = kv_main_v1 (F := F) rows)
    (h4 : V (Proc.devRef .tc main_v4) = kv_main_v4 (F := F) x0 x1 x2)
    (ha1 : V (Proc.devRef .tc main_arg1) = x1)
    (ha2 : V (Proc.devRef .tc main_arg2) = x2) :
    after hostOps1_2 V (Proc.devRef .tc main_v39) = kv_main_v39 (F := F) rows x0 x1 x2 := by
  after_results_simp
  rw [h1, h4, ha1, ha2]
  rfl

/-! ## The whole tail -/

set_option maxRecDepth 8192 in
/-- What the 65 host operations leave at the result buffer, from any contents W: the last stage
    function of W's row sums and of W's three arguments. -/
theorem tail_after (W : Valuation τ sig (Elt F)) :
    StableHlo.after (([hostOps1, hostOps1_1, hostOps1_2] : List (List (HloOp τ sig (Elt F)))).flatten) W (Proc.devRef .tc main_v39)
      = Cert.KernelIdeal.Stages.kv_main_v39 (F := F) (W (Proc.devRef .tc main_v0)) (W (Proc.devRef .tc main_arg0)) (W (Proc.devRef .tc main_arg1)) (W (Proc.devRef .tc main_arg2)) := by
  simp only [List.flatten_cons, List.flatten_nil, List.append_nil]
  rw [after_app, after_app, hostOps1_split, after_app]
  refine S4_v39 _ _ _ _ _ ?_ ?_ ?_ ?_
  · rw [S3_v1, S2_v1, S1_v1]
  · refine S3_v4 _ _ _ _ ?_ ?_
    · refine S2_v3 _ _ _ ?_ ?_
      · rw [S1_v2]
      · rw [S1_arg2]
    · rw [S2_arg0, S1_arg0]
  · rw [S3_arg1, S2_arg1, S1_arg1]
  · rw [S3_arg2, S2_arg2, S1_arg2]

end Cert.KernelIdeal.HTail

end
-- ==== Proof.KIValue.lean ====
/-
  The value of the region's output array after the run: the row sums of squares of the whole input.

  At each of the 16 grid points the body stores, into the [256, 1] output block, the sum over the 10000 columns of the
  square of the [256, 10000] input block: the product of the block with itself, summed along the column axis, the
  [256] result viewed as a [256, 1] column. The input block at point t is rows 256·t … 256·t + 255 of the [4096, 10000]
  argument, and the output block the same rows of the [4096, 1] array; every point writes its block back, and the 16
  blocks tile the array. So the array ends holding, at row n, the sum over the columns q of x (n, q) · x (n, q).
-/
import proofs.«425376_j74869869904427_3_alg».proof.Proof.KIFrame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HValue

open scoped BigOperators
open Cert.KernelIdeal Cert.KernelIdeal.Gen Cert.KernelIdeal.HFrame Idealize.ShloMosaic Idealize.ShloMosaic.TcCoe Idealize.ShloMosaic.ValueIdx Idealize.SL.Sem
open Idealize.ShloMosaic.Pipeline (Dat)

/-- Row sums of squares of the whole input. -/
def Grows (x : S4096x10000.Idx → EReal) : S4096x1.Idx → EReal :=
  fun i => ∑ q : Fin 10000, x (ix2 (⟨(i 0).val, (i 0).isLt⟩ : Fin 4096) q) * x (ix2 (⟨(i 0).val, (i 0).isLt⟩ : Fin 4096) q)

/-! ## The payload at an index -/

/-- The column view of a [256] vector reads, at (p, 0), the vector at p. -/
theorem column_apply (v : S256.Idx → EReal) (p : Fin 256) :
    shapeCast S256x1 v shapeCasts_S256_S256x1 (ix2 p (0 : Fin 1)) = v (ix1 p) := by
  refine shapeCast_apply v shapeCasts_S256_S256x1 (ix2 p (0 : Fin 1)) (ix1 p) ?_
  rw [Shape.rowMajor_val_one, Shape.rowMajor_val_two]
  show p.val = p.val * 1 + 0
  omega

/-- The index the column-axis reduction inserts column q at, over row p, is (p, q). -/
theorem lift_row (p : Fin 256) (q : Fin 10000) :
    reduces_S256x10000_S256.lift (ix1 p) q = ix2 p q := by
  funext a
  match a with
  | ⟨0, _⟩ => exact Fin.ext rfl
  | ⟨1, _⟩ => exact Fin.ext rfl

/-- What the body stores at row p of the output block: the sum over the columns of the squares of row p of the input
    block. -/
theorem pay1_apply (x0 : Vec Ideal S256x10000 .f32) (p : Fin 256) :
    k0_pay1 (F := Ideal) x0 (ix2 p (0 : Fin 1)) = ∑ q : Fin 10000, x0 (ix2 p q) * x0 (ix2 p q) := by
  unfold Gen.k0_pay1
  refine (column_apply _ p).trans ?_
  refine (Ideal.multiReduction_add_single (mulf x0 x0) _ reduces_S256x10000_S256 _ _ (ix1 p)).trans ?_
  refine Finset.sum_congr rfl fun q _ => ?_
  exact congrArg (fun k => x0 k * x0 k) (lift_row p q)

/-! ## The windows' index maps over the grid -/

variable (m : (ℓ : Loc nD τ sig) → Buf (Elt Ideal) ℓ)

theorem hz : (![0, 0] : Fin 2 → Nat) = fun _ => 0 := funext fun a => by fin_cases a <;> rfl

/-- Both windows move with the grid point along the rows and stay at column block 0; there are 16 row blocks. -/
theorem idx_facts : ∀ t : Fin cfg0.N, win0_0.index t (0 : Fin 2) = win0_1.index t (0 : Fin 2)
    ∧ win0_0.index t (1 : Fin 2) = 0
    ∧ win0_1.index t (1 : Fin 2) = 0
    ∧ win0_1.index t (0 : Fin 2) ≤ 15 :=
  (by decide +kernel : ∀ t : Fin grid0.N, _)

/-- Every row block is some point's. -/
theorem idx_onto : ∀ q0 : Fin 16, ∃ t : Fin cfg0.N, win0_1.index t = ![q0.val, 0] :=
  (by decide +kernel : ∀ q0 : Fin 16, ∃ t : Fin grid0.N, win0_1.index t = ![q0.val, 0])

/-! ## What a point writes back -/

/-- Entry (p, q) of the input block at point t is the argument's entry at row 256·(block index) + p, column q. -/
theorem iblk_apply (c : Dev nD) (t : Fin cfg0.N) (p : Fin 256) (q : Fin 10000) (r : Fin 4096)
    (hr : r.val = win0_1.index t (0 : Fin 2) * 256 + p.val) :
    iblk m c 0 t (ix2 p q) = V m c main_arg0 (ix2 r q) := by
  obtain ⟨e0, e1, e2, e3⟩ := idx_facts t
  show V m c main_arg0 (((cfg0.win 0).blk t).view.emb (ix2 p q)) = V m c main_arg0 (ix2 r q)
  refine congrArg (V m c main_arg0) ?_
  funext a; apply Fin.ext
  match a with
  | ⟨0, _⟩ => show win0_0.index t (0 : Fin 2) * 256 + 1 * p.val = r.val; omega
  | ⟨1, _⟩ => show win0_0.index t (1 : Fin 2) * 10000 + 1 * q.val = q.val; omega

/-- Point t writes back block t of the row sums of squares of the argument as the region finds it. -/
theorem flushed_eq (c : Dev nD) (t : Fin cfg0.N) :
    (dats m 0 c).flushed 1 t = ((cfg0.win 1).blk t).view.read (Elt Ideal) (Grows (V m c main_arg0)) := by
  show (cfg0.win 1).cut (grid0.coords t) ((dats m 0 c).after 1 t) = _
  rw [after0_1]
  unfold out0_1
  rw [View.canon_unit_zero hz]
  simp only [View.ld_unit_zero (S := S256x10000) hz]
  funext j
  have hj1 : (j 1).val < 1 := (j 1).isLt
  have hj : j = ix2 (j 0) (0 : Fin 1) := by
    funext a
    match a with
    | ⟨0, _⟩ => rfl
    | ⟨1, _⟩ => exact Fin.ext (by show (j 1).val = 0; omega)
  show k0_pay1 (F := Ideal) (iblk m c 0 t) j = Grows (V m c main_arg0) (((cfg0.win 1).blk t).view.emb j)
  refine (congrArg (k0_pay1 (F := Ideal) (iblk m c 0 t)) hj).trans ?_
  refine (pay1_apply (iblk m c 0 t) (j 0)).trans ?_
  refine Finset.sum_congr rfl fun q _ => ?_
  have hq := iblk_apply m c t (j 0) q
    ⟨((((cfg0.win 1).blk t).view.emb j) 0).val, ((((cfg0.win 1).blk t).view.emb j) 0).isLt⟩
    (by show win0_1.index t (0 : Fin 2) * 256 + 1 * (j 0).val = _; omega)
  rw [hq]

/-! ## The blocks tile the array -/

/-- An index of the array is in point t's block iff each coordinate is in the block's range on its axis. -/
theorem mem_blk (t : Fin cfg0.N) (i : S4096x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- Row n of the array is in the block of the point whose row block is n / 256, and that point writes back. -/
theorem cover (i : S4096x1.Idx) :
    ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-! ## The array after the run -/

/-- The output array after the last write-back: the row sums of squares of the input as launched. -/
theorem final1 (m : (ℓ : Loc nD τ sig) → Buf (Elt Ideal) ℓ) (c : Dev nD) :
    (dats (F := Ideal) m 0 c).arrAt 1 cfg0.N = Grows (m ((c : Thread nD τ).loc main_arg0)) := by
  rw [← V_main_arg0 m c]
  exact (dats m 0 c).arrAt_eq_of_cover 1 (Grows (V m c main_arg0)) (fun t _ => flushed_eq m c t) cover

end Cert.KernelIdeal.HValue

end
-- ==== Proof.KIRead.lean ====
/-
  The kernel program's result after the run, as the later lines' composed function of the row sums of squares and
  the three arguments.

  The frame run leaves every buffer that is not one of the region's two arrays at what the 65 later lines compute
  from the region's exit contents: the output array at the row sums of squares of the input (the write-backs cover
  it), the staged input and the two integer arguments as launched. Read at the result buffer, that is the last stage
  of the later lines applied to those four arrays.
-/
import proofs.«425376_j74869869904427_3_alg».proof.Proof.KIFrame
import proofs.«425376_j74869869904427_3_alg».proof.Proof.KITail
import proofs.«425376_j74869869904427_3_alg».proof.Proof.KIValue

noncomputable section

namespace Cert.KernelIdeal.HRead

open Cert.KernelIdeal Cert.KernelIdeal.Gen Cert.KernelIdeal.HFrame
open Idealize.ShloMosaic Idealize.ShloMosaic.TcCoe Idealize.SL.Sem
open Idealize.ShloMosaic.Pipeline (Dat)

variable (m : (ℓ : Loc nD τ sig) → Buf (Elt Ideal) ℓ)

theorem restRefs_v39 : main_v39 ∈ Pipeline.restRefs sig spec0 := by decide

/-- The result buffer after the later lines: their last stage, of the row sums of squares and the arguments. -/
theorem result_eq (c : Dev nD) :
    Pipeline.afterTail₀ cfgs (dats (F := Ideal) m) 0 (V0 m) tail c main_v39
      = Cert.KernelIdeal.Stages.kv_main_v39 (F := Ideal) (Cert.KernelIdeal.HValue.Grows (m ((c : Thread nD τ).loc main_arg0)))
          (m ((c : Thread nD τ).loc main_arg0)) (m ((c : Thread nD τ).loc main_arg1)) (m ((c : Thread nD τ).loc main_arg2)) := by
  have key := Cert.KernelIdeal.HTail.tail_after (F := Ideal)
    (Pipeline.withArrays spec0 c (V0 m c) (fun w => (dats (F := Ideal) m 0 c).arrAt w cfg0.N))
  have e0 : Pipeline.withArrays spec0 c (V0 m c) (fun w => (dats (F := Ideal) m 0 c).arrAt w cfg0.N) (Proc.devRef .tc main_v0)
      = Cert.KernelIdeal.HValue.Grows (m ((c : Thread nD τ).loc main_arg0)) :=
    (Pipeline.withArrays_arr spec0 launch0.win.arr_inj c _ _ 1).trans (Cert.KernelIdeal.HValue.final1 m c)
  have e1 : Pipeline.withArrays spec0 c (V0 m c) (fun w => (dats (F := Ideal) m 0 c).arrAt w cfg0.N) (Proc.devRef .tc main_arg0)
      = m ((c : Thread nD τ).loc main_arg0) :=
    (Pipeline.withArrays_arr spec0 launch0.win.arr_inj c _ _ 0).trans
      (((dats (F := Ideal) m 0 c).arrAt_in 0 rfl _).trans ((A_eq m c 0).trans (V_main_arg0 m c)))
  have e2 : Pipeline.withArrays spec0 c (V0 m c) (fun w => (dats (F := Ideal) m 0 c).arrAt w cfg0.N) (Proc.devRef .tc main_arg1)
      = m ((c : Thread nD τ).loc main_arg1) :=
    (Pipeline.withArrays_of_ne spec0 c (V0 m c) _ main_arg1 (by exact (by decide : ∀ w, Pipeline.arrRef spec0 w ≠ main_arg1))).trans (V_main_arg1 m c)
  have e3 : Pipeline.withArrays spec0 c (V0 m c) (fun w => (dats (F := Ideal) m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans (V_main_arg2 m c)
  rw [e0, e1, e2, e3] at key
  exact key

/-- The run, read: every weakly fair execution ends with the result buffer at the later lines' last stage of the row
    sums of squares and the arguments, and with the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v39)
          = Cert.KernelIdeal.Stages.kv_main_v39 (F := Ideal) (Cert.KernelIdeal.HValue.Grows (m ((c.tc : Thread nD τ).loc main_arg0)))
              (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v39 restRefs_v39).trans (result_eq m c),
      ((h c).1 0).trans (((dats (F := Ideal) m 0 c).arrAt_in 0 rfl _).trans ((A_eq m c 0).trans (V_main_arg0 m c))),
      ((h c).2 main_arg1 restRefs_arg1).trans (W_main_arg1 m (dats m) c),
      ((h c).2 main_arg2 restRefs_arg2).trans (W_main_arg2 m (dats m) c)⟩) (run_main (F := Ideal) m ρ)

end Cert.KernelIdeal.HRead

end
-- ==== Proof.Spec.lean ====
/-
  The loss both programs compute, as one real number.

  For a row n of the input x (4096 rows of 10000 entries), a target class t n and 64 "don't care" classes dc n j,
  the element loss is (1 - x)² at the target column, 0 at a column some dc n j names (the target taking
  precedence), and x² at every other column; the loss is the sum of the element losses over all rows and columns.
  Class words are read as signed integers; an entry of x is read through its real part, which is the entry itself
  when the entry is finite.
-/
import Idealize.ShloMosaic.PureOps.Ideal
import Idealize.ShloMosaic.Lib.ValueIdx
import Mathlib.Algebra.BigOperators.Fin

noncomputable section

namespace Cert.Spec

open scoped BigOperators
open Idealize.ShloMosaic Idealize.ShloMosaic.ValueIdx

abbrev SX : Shape := ⟨2, ![4096, 10000]⟩
abbrev ST : Shape := ⟨1, ![4096]⟩
abbrev SD : Shape := ⟨2, ![4096, 64]⟩
abbrev S0 : Shape := ⟨0, ![]⟩

/-- The admitted inputs: every entry of x a real number, every class word in 0 … 9999 read signed. -/
def InRange (x : SX.Idx → EReal) (t : ST.Idx → BitVec 32) (dc : SD.Idx → BitVec 32) : Prop :=
  (∀ i, ∃ r : ℝ, x i = (r : EReal))
    ∧ (∀ n, 0 ≤ (t n).toInt ∧ (t n).toInt < 10000)
    ∧ (∀ i, 0 ≤ (dc i).toInt ∧ (dc i).toInt < 10000)

/-- The real part of entry (n, c). -/
def xr (x : SX.Idx → EReal) (n : Fin 4096) (c : Fin 10000) : ℝ := (x (ix2 n c)).toReal

/-- Row n's target class, read signed. -/
def tgt (t : ST.Idx → BitVec 32) (n : Fin 4096) : ℤ := (t (ix1 n)).toInt

/-- Row n's j-th don't-care class, read signed. -/
def dcv (dc : SD.Idx → BitVec 32) (n : Fin 4096) (j : Fin 64) : ℤ := (dc (ix2 n j)).toInt

/-- The element loss at row n, column c. -/
def per (x : SX.Idx → EReal) (t : ST.Idx → BitVec 32) (dc : SD.Idx → BitVec 32) (n : Fin 4096) (c : Fin 10000) : ℝ :=
  if (c.val : ℤ) = tgt t n then (1 - xr x n c) * (1 - xr x n c)
  else if ∃ j, dcv dc n j = (c.val : ℤ) then 0
  else xr x n c * xr x n c

/-- The loss: the element losses summed over rows and columns. -/
def lossR (x : SX.Idx → EReal) (t : ST.Idx → BitVec 32) (dc : SD.Idx → BitVec 32) : ℝ :=
  ∑ n : Fin 4096, ∑ c : Fin 10000, per x t dc n c

/-- The loss as the rank-0 array of extended reals both programs return. -/
def G (x : SX.Idx → EReal) (t : ST.Idx → BitVec 32) (dc : SD.Idx → BitVec 32) : S0.Idx → EReal :=
  fun _ => ((lossR x t dc : ℝ) : EReal)

end Cert.Spec

end
-- ==== Proof.RowIdentity.lean ====
/-
  One row of the loss, as an identity of real numbers.

  For a row x : Fin C → ℝ, a target column t and don't-care columns d j (j < K), the sum of the
  element losses — (1 - x t)² at the target, 0 at every other column some d j names, x c² elsewhere —
  equals the sum of all squares, plus 1 - 2·x t, minus the squares x (d j)² taken once for each
  don't-care class other than the target, namely at the least index j of that class.
-/
import Mathlib.Algebra.BigOperators.Group.Finset.Basic
import Mathlib.Algebra.BigOperators.Fin
import Mathlib.Data.Finset.Max
import Mathlib.Data.Real.Basic
import Mathlib.Tactic.Ring
import Mathlib.Tactic.Linarith

namespace Cert.RowIdentity

open scoped BigOperators

/-- Index j is the first of its class: no smaller index k has d k = d j. -/
def First {C K : ℕ} (d : Fin K → Fin C) (j : Fin K) : Prop := ¬ ∃ k, k < j ∧ d j = d k

/-- Two first indices of the same class coincide: d is injective on the first indices. -/
theorem first_inj {C K : ℕ} (d : Fin K → Fin C) {j j' : Fin K}
    (hj : First d j) (hj' : First d j') (h : d j = d j') : j = j' := by
  rcases lt_trichotomy j j' with hlt | heq | hgt
  · exact absurd ⟨j, hlt, h.symm⟩ hj'
  · exact heq
  · exact absurd ⟨j', hgt, h⟩ hj

/-- Every class that occurs has a first index: the least index of the class. -/
theorem exists_first {C K : ℕ} (d : Fin K → Fin C) (j0 : Fin K) :
    ∃ j, First d j ∧ d j = d j0 := by
  classical
  have hne : (Finset.univ.filter (fun j => d j = d j0)).Nonempty := ⟨j0, by simp⟩
  have hmin := Finset.min'_mem _ hne
  simp only [Finset.mem_filter, Finset.mem_univ, true_and] at hmin
  refine ⟨(Finset.univ.filter (fun j => d j = d j0)).min' hne, ?_, hmin⟩
  rintro ⟨k, hk, hdk⟩
  have hmem : k ∈ Finset.univ.filter (fun j => d j = d j0) := by
    simp only [Finset.mem_filter, Finset.mem_univ, true_and]
    rw [← hdk]; exact hmin
  exact absurd (Finset.min'_le _ k hmem) (not_le.mpr hk)

/-- The squares x (d j)², taken at the first index of each class other than t, sum to the squares
x c² over the columns c ≠ t that some d j names: d maps the first indices one-to-one onto the
classes that occur. -/
theorem weighted_sum {C K : ℕ} (x : Fin C → ℝ) (t : Fin C) (d : Fin K → Fin C)
    (p : Fin K → Prop) (q : Fin C → Prop) [DecidablePred p] [DecidablePred q]
    (hp : ∀ j, p j ↔ (First d j ∧ d j ≠ t)) (hq : ∀ c, q c ↔ ∃ j, d j = c) :
    (∑ j, (x (d j) * x (d j)) * (if p j then (1 : ℝ) else 0))
      = ∑ c, (if c = t then 0 else if q c then x c * x c else 0) := by
  classical
  have h1 : (∑ j, (x (d j) * x (d j)) * (if p j then (1 : ℝ) else 0))
      = ∑ j ∈ Finset.univ.filter (First d), (if d j = t then 0 else x (d j) * x (d j)) := by
    rw [Finset.sum_filter]
    refine Finset.sum_congr rfl (fun j _ => ?_)
    by_cases h1 : First d j
    · by_cases h2 : d j = t
      · have hnp : ¬ p j := fun hpj => ((hp j).mp hpj).2 h2
        rw [if_neg hnp, if_pos h1, if_pos h2, mul_zero]
      · have hpj : p j := (hp j).mpr ⟨h1, h2⟩
        rw [if_pos hpj, if_pos h1, if_neg h2, mul_one]
    · have hnp : ¬ p j := fun hpj => h1 ((hp j).mp hpj).1
      rw [if_neg hnp, if_neg h1, mul_zero]
  have h2 : (∑ j ∈ Finset.univ.filter (First d), (if d j = t then 0 else x (d j) * x (d j)))
      = ∑ c ∈ (Finset.univ.filter (First d)).image d, (if c = t then 0 else x c * x c) := by
    rw [Finset.sum_image]
    intro j hj j' hj' h
    simp only [Finset.coe_filter, Finset.mem_univ, true_and, Set.mem_setOf_eq] at hj hj'
    exact first_inj d hj hj' h
  have h3 : (Finset.univ.filter (First d)).image d = Finset.univ.filter (fun c => ∃ j, d j = c) := by
    ext c
    simp only [Finset.mem_image, Finset.mem_filter, Finset.mem_univ, true_and]
    constructor
    · rintro ⟨j, _, rfl⟩; exact ⟨j, rfl⟩
    · rintro ⟨j0, rfl⟩
      obtain ⟨j, hj, hdj⟩ := exists_first d j0
      exact ⟨j, hj, hdj⟩
  rw [h1, h2, h3, Finset.sum_filter]
  refine Finset.sum_congr rfl (fun c _ => ?_)
  by_cases h1 : ∃ j, d j = c
  · have hqc : q c := (hq c).mpr h1
    rw [if_pos h1, if_pos hqc]
  · have hqc : ¬ q c := fun h => h1 ((hq c).mp h)
    rw [if_neg h1, if_neg hqc, ite_self]

/-- The row identity with the two conditions given as arbitrary decidable predicates: p j says that j is
the first index of its class and that class is not the target, q c says that some d j names column c. -/
theorem row_identity' {C K : ℕ} (x : Fin C → ℝ) (t : Fin C) (d : Fin K → Fin C)
    (p : Fin K → Prop) (q : Fin C → Prop) [DecidablePred p] [DecidablePred q]
    (hp : ∀ j, p j ↔ ((¬ ∃ k, k < j ∧ d j = d k) ∧ d j ≠ t)) (hq : ∀ c, q c ↔ ∃ j, d j = c) :
    (∑ c, x c * x c) + (1 - 2 * x t)
      + -(∑ j, (x (d j) * x (d j)) * (if p j then (1 : ℝ) else 0))
    = ∑ c, (if c = t then (1 - x c) * (1 - x c) else if q c then 0 else x c * x c) := by
  rw [weighted_sum x t d p q hp hq]
  have ht : (1 - 2 * x t) = ∑ c, (if c = t then (1 - 2 * x c) else 0) := by
    rw [Finset.sum_ite_eq' Finset.univ t, if_pos (Finset.mem_univ t)]
  rw [ht, ← Finset.sum_add_distrib, ← Finset.sum_neg_distrib, ← Finset.sum_add_distrib]
  refine Finset.sum_congr rfl (fun c _ => ?_)
  by_cases h1 : c = t
  · rw [if_pos h1, if_pos h1, if_pos h1]; ring
  · rw [if_neg h1, if_neg h1, if_neg h1]
    by_cases h2 : q c
    · rw [if_pos h2, if_pos h2]; ring
    · rw [if_neg h2, if_neg h2]; ring

/-- The row identity: the sum of squares, corrected by 1 - 2·x t at the target and by -x (d j)² at the
first index j of each don't-care class other than the target, is the sum of the element losses. -/
theorem row_identity {C K : ℕ} (x : Fin C → ℝ) (t : Fin C) (d : Fin K → Fin C) :
    (∑ c, x c * x c) + (1 - 2 * x t)
      + -(∑ j, (x (d j) * x (d j)) * (if (¬ ∃ k, k < j ∧ d j = d k) ∧ d j ≠ t then (1 : ℝ) else 0))
    = ∑ c, (if c = t then (1 - x c) * (1 - x c) else if ∃ j, d j = c then 0 else x c * x c) :=
  row_identity' x t d (fun j => (¬ ∃ k, k < j ∧ d j = d k) ∧ d j ≠ t) (fun c => ∃ j, d j = c)
    (fun _ => Iff.rfl) (fun _ => Iff.rfl)

end Cert.RowIdentity
-- ==== Proof.KernelValue.lean ====
/-
  The value of the kernel's host tail. Reading the 65 host operations one at a time at the ideal instance, under
  the hypothesis that every entry of x is a real number and every class word lies in 0 … 9999:
  the index array holds the target word in column 0 and the don't-care words in columns 1 … 64; the index
  normalisation keeps every word, the range mask is all ones, and the gather reads x at (row, word); the keep bit
  of (n, j) says that no earlier k has the same don't-care word and that the word is not the target's; the row
  total is rows + (1 - 2·x[n, t n]) - Σ_j x[n, dc n j]²·keep, which the row identity turns into the row's sum of
  element losses; and the final sum over the rows is the loss.
-/
import proofs.«425376_j74869869904427_3_alg».proof.Proof.KernelStages
import proofs.«425376_j74869869904427_3_alg».proof.Proof.Spec
import proofs.«425376_j74869869904427_3_alg».proof.Proof.RowIdentity
import Idealize.ShloMosaic.Lib.IdealHost
import Idealize.ShloMosaic.Lib.Affine
import Idealize.ShloMosaic.Lib.ReduceAll
import Idealize.ShloMosaic.Lib.StableHlo.Predicate
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.Reduce

noncomputable section

namespace Cert.KernelIdeal.TailValue

open scoped BigOperators
open Cert.KernelIdeal Cert.KernelIdeal.Gen Cert.KernelIdeal.Stages Idealize.ShloMosaic Idealize.ShloMosaic.ValueIdx

/-! ## The index array -/

/-- Column k of row n of the index array: the target word at k = 0, the don't-care word k - 1 after it. -/
def idxw (t : Cert.Spec.ST.Idx → BitVec 32) (dc : Cert.Spec.SD.Idx → BitVec 32) (n : Fin 4096) (k : Fin 65) : BitVec 32 :=
  if h : k.val = 0 then t (ix1 n) else dc (ix2 n ⟨k.val - 1, by have := k.isLt; omega⟩)

theorem v2_apply (t : Cert.Spec.ST.Idx → BitVec 32) (n : Fin 4096) (z : Fin 1) :
    kv_main_v2 (F := Ideal) t (ix2 n z) = t (ix1 n) := by
  unfold kv_main_v2
  exact broadcastInDim_apply _ bcast_S4096_S4096x1_0 t (ix2 n z) (ix1 n) (fun a => match a with
    | ⟨0, _⟩ => by show n.val = if (4096 : Nat) = 1 then 0 else n.val; rw [if_neg (by decide)])

theorem v3_zero (t : Cert.Spec.ST.Idx → BitVec 32) (dc : Cert.Spec.SD.Idx → BitVec 32) (n : Fin 4096) (hk : 0 < 65) :
    kv_main_v3 (F := Ideal) t dc (ix2 n (⟨0, hk⟩ : Fin 65)) = t (ix1 n) := by
  unfold kv_main_v3
  refine (concatenate_pair_apply_left (t := S4096x65) (s₁ := S4096x1) (s₂ := S4096x64) (1 : Fin 2) _ _ concatenates_S4096x1_S4096x64_S4096x65_d1 (ix2 n ⟨0, hk⟩) rfl
    (ix2 n (0 : Fin 1)) (fun b => match b with | ⟨0, _⟩ => rfl | ⟨1, _⟩ => rfl)).trans ?_
  exact v2_apply t n 0

theorem v3_succ (t : Cert.Spec.ST.Idx → BitVec 32) (dc : Cert.Spec.SD.Idx → BitVec 32) (n : Fin 4096) (j : Fin 64)
    (hk : j.val + 1 < 65) :
    kv_main_v3 (F := Ideal) t dc (ix2 n (⟨j.val + 1, hk⟩ : Fin 65)) = dc (ix2 n j) := by
  unfold kv_main_v3
  exact concatenate_pair_apply_right (t := S4096x65) (s₁ := S4096x1) (s₂ := S4096x64) (1 : Fin 2) _ _ concatenates_S4096x1_S4096x64_S4096x65_d1 (ix2 n ⟨j.val + 1, hk⟩) rfl rfl
    (ix2 n j) (fun b hb => match b, hb with | ⟨0, _⟩, _ => rfl | ⟨1, _⟩, hb => absurd rfl hb) rfl

theorem v3_apply (t : Cert.Spec.ST.Idx → BitVec 32) (dc : Cert.Spec.SD.Idx → BitVec 32) (n : Fin 4096) (k : Fin 65) :
    kv_main_v3 (F := Ideal) t dc (ix2 n k) = idxw t dc n k := by
  obtain ⟨k, hk⟩ := k
  cases k with
  | zero => rw [v3_zero t dc n hk]; unfold idxw; rw [dif_pos rfl]
  | succ k =>
    rw [v3_succ t dc n ⟨k, by omega⟩ hk]; unfold idxw; rw [dif_neg (Nat.succ_ne_zero k)]
    rfl

/-- Under the range hypothesis every word of the index array is in 0 … 9999. -/
theorem idxw_range {x : Cert.Spec.SX.Idx → EReal} {t : Cert.Spec.ST.Idx → BitVec 32} {dc : Cert.Spec.SD.Idx → BitVec 32}
    (h : Cert.Spec.InRange x t dc) (n : Fin 4096) (k : Fin 65) :
    0 ≤ (idxw t dc n k).toInt ∧ (idxw t dc n k).toInt < 10000 := by
  unfold idxw
  split
  · exact h.2.1 _
  · exact h.2.2 _

theorem v3_range {x : Cert.Spec.SX.Idx → EReal} {t : Cert.Spec.ST.Idx → BitVec 32} {dc : Cert.Spec.SD.Idx → BitVec 32}
    (h : Cert.Spec.InRange x t dc) (i : S4096x65.Idx) :
    0 ≤ (kv_main_v3 (F := Ideal) t dc i).toInt ∧ (kv_main_v3 (F := Ideal) t dc i).toInt < 10000 := by
  obtain ⟨n, k, rfl⟩ : ∃ (n : Fin 4096) (k : Fin 65), i = ix2 n k := ⟨i 0, i 1, eq_ix2 i⟩
  rw [v3_apply]; exact idxw_range h n k

/-! ## The index normalisation keeps every word -/

theorem c0v4_apply {x : Cert.Spec.SX.Idx → EReal} {t : Cert.Spec.ST.Idx → BitVec 32} {dc : Cert.Spec.SD.Idx → BitVec 32}
    (h : Cert.Spec.InRange x t dc) (i : S4096x65.Idx) :
    kv_main_call0_v4 (F := Ideal) t dc i = kv_main_v3 (F := Ideal) t dc i := by
  have hr := v3_range h i
  show Scalar.select (IntOp.cmpi .slt (kv_main_v3 (F := Ideal) t dc i) 0#32) _ _ = _
  have h0 : IntOp.cmpi .slt (kv_main_v3 (F := Ideal) t dc i) 0#32 = 0#1 :=
    eq_zero_of_ne_one (fun e => by
      have := IntOp.cmpi_slt.1 e
      rw [show (0#32 : BitVec 32).toInt = 0 from by decide] at this
      omega)
  rw [h0, select_zero]

theorem c0v5_apply (t : Cert.Spec.ST.Idx → BitVec 32) (dc : Cert.Spec.SD.Idx → BitVec 32) (n : Fin 4096) (k : Fin 65) :
    kv_main_call0_v5 (F := Ideal) t dc (ix3 n k (0 : Fin 1)) = kv_main_call0_v4 (F := Ideal) t dc (ix2 n k) := by
  unfold kv_main_call0_v5
  exact shapeCast_apply _ shapeCasts_S4096x65_S4096x65x1 (ix3 n k (0 : Fin 1)) (ix2 n k) (by
    rw [Shape.rowMajor_val_two, Shape.rowMajor_val_three]
    show n.val * 65 + k.val = (n.val * 65 + k.val) * 1 + 0
    omega)

theorem c0v5_range {x : Cert.Spec.SX.Idx → EReal} {t : Cert.Spec.ST.Idx → BitVec 32} {dc : Cert.Spec.SD.Idx → BitVec 32}
    (h : Cert.Spec.InRange x t dc) (i : S4096x65x1.Idx) :
    0 ≤ (kv_main_call0_v5 (F := Ideal) t dc i).toInt ∧ (kv_main_call0_v5 (F := Ideal) t dc i).toInt < 10000 := by
  unfold kv_main_call0_v5 shapeCast
  rw [c0v4_apply h]; exact v3_range h _

/-! ## The range mask is all ones -/

theorem c0v11_apply {x : Cert.Spec.SX.Idx → EReal} {t : Cert.Spec.ST.Idx → BitVec 32} {dc : Cert.Spec.SD.Idx → BitVec 32}
    (h : Cert.Spec.InRange x t dc) (i : S4096x65x1.Idx) :
    kv_main_call0_v11 (F := Ideal) t dc i = 1#1 := by
  have hr := c0v5_range h i
  show IntOp.andi (IntOp.cmpi .sge (kv_main_call0_v5 (F := Ideal) t dc i) 0#32)
    (IntOp.cmpi .sle (kv_main_call0_v5 (F := Ideal) t dc i) 9999#32) = 1#1
  rw [IntOp.andi_eq_one]
  refine ⟨IntOp.cmpi_sge.2 ?_, IntOp.cmpi_sle.2 ?_⟩
  · rw [show (0#32 : BitVec 32).toInt = 0 from by decide]; exact hr.1
  · rw [show (9999#32 : BitVec 32).toInt = 9999 from by decide]; omega

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

theorem c0v12_apply {x : Cert.Spec.SX.Idx → EReal} {t : Cert.Spec.ST.Idx → BitVec 32} {dc : Cert.Spec.SD.Idx → BitVec 32}
    (h : Cert.Spec.InRange x t dc) (i : S4096x65.Idx) :
    kv_main_call0_v12 (F := Ideal) t dc i = 1#1 := by
  unfold kv_main_call0_v12
  rw [Host.reduce_eq_foldl]
  exact foldl_andi_one _ (c0v11_apply h) _

/-! ## The gather reads x at (row, word) -/

/-- The gather at (n, k): the operand at row n and at the column the start index (n, k, 0) names, read signed and
    clamped into 0 … 9999. -/
theorem gather_apply (x0 : S4096x10000.Idx → EReal) (idx : IVec S4096x65x1 32) (n : Fin 4096) (k : Fin 65) :
    Host.gather gather_S4096x10000_S4096x65x1_S4096x65_n_1_0_0_1_2_11 x0 idx (ix2 n k)
      = x0 (ix2 n ⟨min (idx (ix3 n k (0 : Fin 1))).toInt.toNat 9999, by omega⟩) := by
  unfold Host.gather
  congr 1
  funext a
  refine Fin.ext ?_
  match a with
  | ⟨0, _⟩ =>
    show gather_S4096x10000_S4096x65x1_S4096x65_n_1_0_0_1_2_11.start (ix2 n k) idx 0
      + gather_S4096x10000_S4096x65x1_S4096x65_n_1_0_0_1_2_11.batchCoord (ix2 n k) 0
      + gather_S4096x10000_S4096x65x1_S4096x65_n_1_0_0_1_2_11.offCoord (ix2 n k) 0 = n.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S4096x10000_S4096x65x1_S4096x65_n_1_0_0_1_2_11.operandBatchingDims from List.mem_singleton.mpr rfl)]
    simp only [Nat.zero_add, Nat.add_zero]
    rfl
  | ⟨1, _⟩ =>
    show gather_S4096x10000_S4096x65x1_S4096x65_n_1_0_0_1_2_11.start (ix2 n k) idx 1
      + gather_S4096x10000_S4096x65x1_S4096x65_n_1_0_0_1_2_11.batchCoord (ix2 n k) 1
      + gather_S4096x10000_S4096x65x1_S4096x65_n_1_0_0_1_2_11.offCoord (ix2 n k) 1
        = min (idx (ix3 n k (0 : Fin 1))).toInt.toNat 9999
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x10000_S4096x65x1_S4096x65_n_1_0_0_1_2_11.startIndexMap from List.mem_singleton.mpr rfl)]
    have hsi : gather_S4096x10000_S4096x65x1_S4096x65_n_1_0_0_1_2_11.siIdx (ix2 n k)
        ⟨List.idxOf (1 : Fin 2) gather_S4096x10000_S4096x65x1_S4096x65_n_1_0_0_1_2_11.startIndexMap,
          List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl

/-- The column a word names: the word read signed, clamped into 0 … 9999. -/
def colOf (w : BitVec 32) : Fin 10000 := ⟨min w.toInt.toNat 9999, by omega⟩

theorem colOf_val {w : BitVec 32} (h : 0 ≤ w.toInt ∧ w.toInt < 10000) : ((colOf w).val : ℤ) = w.toInt := by
  show ((min w.toInt.toNat 9999 : ℕ) : ℤ) = w.toInt
  omega

theorem gather_apply_of (x0 : S4096x10000.Idx → EReal) (idx : IVec S4096x65x1 32) (n : Fin 4096) (k : Fin 65) (w : BitVec 32)
    (hw : idx (ix3 n k (0 : Fin 1)) = w) :
    Host.gather gather_S4096x10000_S4096x65x1_S4096x65_n_1_0_0_1_2_11 x0 idx (ix2 n k) = x0 (ix2 n (colOf w)) := by
  subst hw
  exact gather_apply x0 idx n k

/-- The take-along-axis result at (n, k): x at row n and at the column the index word names. -/
theorem v4_apply {x : Cert.Spec.SX.Idx → EReal} {t : Cert.Spec.ST.Idx → BitVec 32} {dc : Cert.Spec.SD.Idx → BitVec 32}
    (h : Cert.Spec.InRange x t dc) (n : Fin 4096) (k : Fin 65) :
    kv_main_v4 (F := Ideal) x t dc (ix2 n k) = x (ix2 n (colOf (idxw t dc n k))) := by
  unfold kv_main_v4
  rw [select_apply, c0v12_apply h, select_one]
  unfold kv_main_call0_v13
  exact gather_apply_of x _ n k (idxw t dc n k)
    ((c0v5_apply t dc n k).trans ((c0v4_apply h _).trans (v3_apply t dc n k)))

/-! ## The two slices of the gathered array -/

theorem v6_apply (x : Cert.Spec.SX.Idx → EReal) (t : Cert.Spec.ST.Idx → BitVec 32) (dc : Cert.Spec.SD.Idx → BitVec 32) (n : Fin 4096) :
    kv_main_v6 (F := Ideal) x t dc (ix1 n) = kv_main_v4 (F := Ideal) x t dc (ix2 n (0 : Fin 65)) := by
  unfold kv_main_v6
  refine (shapeCast_apply _ shapeCasts_S4096x1_S4096 (ix1 n) (ix2 n (0 : Fin 1)) (by
    rw [Shape.rowMajor_val_two, Shape.rowMajor_val_one]
    show n.val * 1 + 0 = n.val
    omega)).trans ?_
  unfold kv_main_v5
  exact extractStridedSlice_apply _ _ slices_S4096x65_S4096x1_0_0 (ix2 n (0 : Fin 1)) (ix2 n (0 : Fin 65)) (fun a => match a with
    | ⟨0, _⟩ => by show n.val = 0 + n.val; omega
    | ⟨1, _⟩ => by show 0 = 0 + 0; rfl)

theorem v7_apply (x : Cert.Spec.SX.Idx → EReal) (t : Cert.Spec.ST.Idx → BitVec 32) (dc : Cert.Spec.SD.Idx → BitVec 32) (n : Fin 4096) (j : Fin 64) :
    kv_main_v7 (F := Ideal) x t dc (ix2 n j) = kv_main_v4 (F := Ideal) x t dc (ix2 n (⟨j.val + 1, by omega⟩ : Fin 65)) := by
  unfold kv_main_v7
  exact extractStridedSlice_apply _ _ slices_S4096x65_S4096x64_0_1 (ix2 n j) (ix2 n (⟨j.val + 1, by omega⟩ : Fin 65)) (fun a => match a with
    | ⟨0, _⟩ => by show n.val = 0 + n.val; omega
    | ⟨1, _⟩ => by show j.val + 1 = 1 + j.val; omega)

theorem v1_apply (rows : S4096x1.Idx → EReal) (n : Fin 4096) :
    kv_main_v1 (F := Ideal) rows (ix1 n) = rows (ix2 n (0 : Fin 1)) := by
  unfold kv_main_v1
  exact shapeCast_apply _ shapeCasts_S4096x1_S4096 (ix1 n) (ix2 n (0 : Fin 1)) (by
    rw [Shape.rowMajor_val_two, Shape.rowMajor_val_one]
    show n.val * 1 + 0 = n.val
    omega)

/-! ## The constants -/

theorem ofBits_two_f32 : Ideal.ofBits .f32 0x40000000#32 = ((2 : ℝ) : EReal) := by
  simp [Ideal.ofBits, Ideal.ieee, -EReal.coe_mul]; norm_num

theorem v11_apply (x : Cert.Spec.SX.Idx → EReal) (t : Cert.Spec.ST.Idx → BitVec 32) (dc : Cert.Spec.SD.Idx → BitVec 32) (n : Fin 4096) :
    kv_main_v11 (F := Ideal) x t dc (ix1 n) = 1 - ((2 : ℝ) : EReal) * kv_main_v6 (F := Ideal) x t dc (ix1 n) := by
  show Ideal.ofBits .f32 0x3F800000#32 - Ideal.ofBits .f32 0x40000000#32 * kv_main_v6 (F := Ideal) x t dc (ix1 n) = _
  rw [Ideal.ofBits_one_f32, ofBits_two_f32]

/-! ## The broadcasts behind the keep bit -/

theorem v18_apply (dc : Cert.Spec.SD.Idx → BitVec 32) (n : Fin 4096) (j : Fin 64) (z : Fin 1) :
    kv_main_v18 (F := Ideal) dc (ix3 n j z) = dc (ix2 n j) := by
  unfold kv_main_v18
  exact broadcastInDim_apply _ bcast_S4096x64_S4096x64x1_0_1 _ (ix3 n j z) (ix2 n j) (fun a => match a with
    | ⟨0, _⟩ => by show (n).val = if (4096 : Nat) = 1 then 0 else (n).val; rw [if_neg (by decide)]
    | ⟨1, _⟩ => by show (j).val = if (64 : Nat) = 1 then 0 else (j).val; rw [if_neg (by decide)])

theorem v19_apply (dc : Cert.Spec.SD.Idx → BitVec 32) (n : Fin 4096) (z : Fin 1) (k : Fin 64) :
    kv_main_v19 (F := Ideal) dc (ix3 n z k) = dc (ix2 n k) := by
  unfold kv_main_v19
  exact broadcastInDim_apply _ bcast_S4096x64_S4096x1x64_0_2 _ (ix3 n z k) (ix2 n k) (fun a => match a with
    | ⟨0, _⟩ => by show (n).val = if (4096 : Nat) = 1 then 0 else (n).val; rw [if_neg (by decide)]
    | ⟨1, _⟩ => by show (k).val = if (64 : Nat) = 1 then 0 else (k).val; rw [if_neg (by decide)])

theorem v20_apply (dc : Cert.Spec.SD.Idx → BitVec 32) (n : Fin 4096) (j k : Fin 64) :
    kv_main_v20 (F := Ideal) dc (ix3 n j k) = dc (ix2 n j) := by
  unfold kv_main_v20
  refine (broadcastInDim_apply _ bcast_S4096x64x1_S4096x64x64_0_1_2 _ (ix3 n j k) (ix3 n j ((0 : Fin 1))) (fun a => match a with
    | ⟨0, _⟩ => by show (n).val = if (4096 : Nat) = 1 then 0 else (n).val; rw [if_neg (by decide)]
    | ⟨1, _⟩ => by show (j).val = if (64 : Nat) = 1 then 0 else (j).val; rw [if_neg (by decide)]
    | ⟨2, _⟩ => by show 0 = if (1 : Nat) = 1 then 0 else (k).val; rw [if_pos rfl])).trans ?_
  exact v18_apply dc n j 0

theorem v21_apply (dc : Cert.Spec.SD.Idx → BitVec 32) (n : Fin 4096) (j k : Fin 64) :
    kv_main_v21 (F := Ideal) dc (ix3 n j k) = dc (ix2 n k) := by
  unfold kv_main_v21
  refine (broadcastInDim_apply _ bcast_S4096x1x64_S4096x64x64_0_1_2 _ (ix3 n j k) (ix3 n ((0 : Fin 1)) k) (fun a => match a with
    | ⟨0, _⟩ => by show (n).val = if (4096 : Nat) = 1 then 0 else (n).val; rw [if_neg (by decide)]
    | ⟨1, _⟩ => by show 0 = if (1 : Nat) = 1 then 0 else (j).val; rw [if_pos rfl]
    | ⟨2, _⟩ => by show (k).val = if (64 : Nat) = 1 then 0 else (k).val; rw [if_neg (by decide)])).trans ?_
  exact v19_apply dc n 0 k

theorem v13_apply (j : Fin 64) (z : Fin 1) :
    kv_main_v13 (F := Ideal) (ix2 j z) = BitVec.ofNat 32 j.val := by
  unfold kv_main_v13
  refine (broadcastInDim_apply _ bcast_S64_S64x1_0 _ (ix2 j z) (ix1 j) (fun a => match a with
    | ⟨0, _⟩ => by show (j).val = if (64 : Nat) = 1 then 0 else (j).val; rw [if_neg (by decide)])).trans ?_
  exact rfl

theorem v14_apply (z : Fin 1) (k : Fin 64) :
    kv_main_v14 (F := Ideal) (ix2 z k) = BitVec.ofNat 32 k.val := by
  unfold kv_main_v14
  refine (broadcastInDim_apply _ bcast_S64_S1x64_1 _ (ix2 z k) (ix1 k) (fun a => match a with
    | ⟨0, _⟩ => by show (k).val = if (64 : Nat) = 1 then 0 else (k).val; rw [if_neg (by decide)])).trans ?_
  exact rfl

theorem v15_apply (j k : Fin 64) :
    kv_main_v15 (F := Ideal) (ix2 j k) = BitVec.ofNat 32 j.val := by
  unfold kv_main_v15
  refine (broadcastInDim_apply _ bcast_S64x1_S64x64_0_1 _ (ix2 j k) (ix2 j ((0 : Fin 1))) (fun a => match a with
    | ⟨0, _⟩ => by show (j).val = if (64 : Nat) = 1 then 0 else (j).val; rw [if_neg (by decide)]
    | ⟨1, _⟩ => by show 0 = if (1 : Nat) = 1 then 0 else (k).val; rw [if_pos rfl])).trans ?_
  exact v13_apply j 0

theorem v16_apply (j k : Fin 64) :
    kv_main_v16 (F := Ideal) (ix2 j k) = BitVec.ofNat 32 k.val := by
  unfold kv_main_v16
  refine (broadcastInDim_apply _ bcast_S1x64_S64x64_0_1 _ (ix2 j k) (ix2 ((0 : Fin 1)) k) (fun a => match a with
    | ⟨0, _⟩ => by show 0 = if (1 : Nat) = 1 then 0 else (j).val; rw [if_pos rfl]
    | ⟨1, _⟩ => by show (k).val = if (64 : Nat) = 1 then 0 else (k).val; rw [if_neg (by decide)])).trans ?_
  exact v14_apply 0 k

theorem v23_apply (z : Fin 1) (j k : Fin 64) :
    kv_main_v23 (F := Ideal) (ix3 z j k) = kv_main_v17 (F := Ideal) (ix2 j k) := by
  unfold kv_main_v23
  exact broadcastInDim_apply _ bcast_S64x64_S1x64x64_1_2 _ (ix3 z j k) (ix2 j k) (fun a => match a with
    | ⟨0, _⟩ => by show (j).val = if (64 : Nat) = 1 then 0 else (j).val; rw [if_neg (by decide)]
    | ⟨1, _⟩ => by show (k).val = if (64 : Nat) = 1 then 0 else (k).val; rw [if_neg (by decide)])

theorem v24_apply (n : Fin 4096) (j k : Fin 64) :
    kv_main_v24 (F := Ideal) (ix3 n j k) = kv_main_v17 (F := Ideal) (ix2 j k) := by
  unfold kv_main_v24
  refine (broadcastInDim_apply _ bcast_S1x64x64_S4096x64x64_0_1_2 _ (ix3 n j k) (ix3 ((0 : Fin 1)) j k) (fun a => match a with
    | ⟨0, _⟩ => by show 0 = if (1 : Nat) = 1 then 0 else (n).val; rw [if_pos rfl]
    | ⟨1, _⟩ => by show (j).val = if (64 : Nat) = 1 then 0 else (j).val; rw [if_neg (by decide)]
    | ⟨2, _⟩ => by show (k).val = if (64 : Nat) = 1 then 0 else (k).val; rw [if_neg (by decide)])).trans ?_
  exact v23_apply 0 j k

theorem v28_apply (t : Cert.Spec.ST.Idx → BitVec 32) (n : Fin 4096) (z : Fin 1) :
    kv_main_v28 (F := Ideal) t (ix2 n z) = t (ix1 n) := by
  unfold kv_main_v28
  exact broadcastInDim_apply _ bcast_S4096_S4096x1_0 _ (ix2 n z) (ix1 n) (fun a => match a with
    | ⟨0, _⟩ => by show (n).val = if (4096 : Nat) = 1 then 0 else (n).val; rw [if_neg (by decide)])

theorem v29_apply (t : Cert.Spec.ST.Idx → BitVec 32) (n : Fin 4096) (j : Fin 64) :
    kv_main_v29 (F := Ideal) t (ix2 n j) = t (ix1 n) := by
  unfold kv_main_v29
  refine (broadcastInDim_apply _ bcast_S4096x1_S4096x64_0_1 _ (ix2 n j) (ix2 n ((0 : Fin 1))) (fun a => match a with
    | ⟨0, _⟩ => by show (n).val = if (4096 : Nat) = 1 then 0 else (n).val; rw [if_neg (by decide)]
    | ⟨1, _⟩ => by show 0 = if (1 : Nat) = 1 then 0 else (j).val; rw [if_pos rfl])).trans ?_
  exact v28_apply t n 0

/-! ## The keep bit -/

theorem toInt_ofNat_lt64 (a : Fin 64) : (BitVec.ofNat 32 a.val).toInt = (a.val : ℤ) :=
  StableHlo.Predicate.toInt_ofNat_small a.val (by have := a.isLt; omega)

theorem v17_apply (j k : Fin 64) : kv_main_v17 (F := Ideal) (ix2 j k) = 1#1 ↔ k < j := by
  show IntOp.cmpi .sgt (kv_main_v15 (F := Ideal) (ix2 j k)) (kv_main_v16 (F := Ideal) (ix2 j k)) = 1#1 ↔ k < j
  rw [v15_apply, v16_apply, IntOp.cmpi_sgt, toInt_ofNat_lt64, toInt_ofNat_lt64, Int.ofNat_lt, Fin.lt_def]

theorem v25_apply (dc : Cert.Spec.SD.Idx → BitVec 32) (n : Fin 4096) (j k : Fin 64) :
    kv_main_v25 (F := Ideal) dc (ix3 n j k) = 1#1 ↔ (dc (ix2 n j) = dc (ix2 n k) ∧ k < j) := by
  show IntOp.andi (IntOp.cmpi .eq (kv_main_v20 (F := Ideal) dc (ix3 n j k)) (kv_main_v21 (F := Ideal) dc (ix3 n j k)))
    (kv_main_v24 (F := Ideal) (ix3 n j k)) = 1#1 ↔ (dc (ix2 n j) = dc (ix2 n k) ∧ k < j)
  rw [IntOp.andi_eq_one, IntOp.cmpi_eq, v20_apply, v21_apply, v24_apply, v17_apply]

/-- A fold of one-bit words by "or" from 0 is 1 exactly when some word is 1. -/
theorem fold_ori_eq_one {ι : Type} [DecidableEq ι] (S : Finset ι) (f : ι → BitVec 1) :
    S.fold IntOp.ori 0#1 f = 1#1 ↔ ∃ k ∈ S, f k = 1#1 := by
  induction S using Finset.induction_on with
  | empty => simp
  | insert a S ha ih =>
    rw [Finset.fold_insert ha, IntOp.ori_eq_one, ih]
    constructor
    · rintro (h | ⟨k, hk, h⟩)
      · exact ⟨a, Finset.mem_insert_self _ _, h⟩
      · exact ⟨k, Finset.mem_insert_of_mem hk, h⟩
    · rintro ⟨k, hk, h⟩
      rcases Finset.mem_insert.1 hk with rfl | hk
      · exact Or.inl h
      · exact Or.inr ⟨k, hk, h⟩

theorem v26_apply (dc : Cert.Spec.SD.Idx → BitVec 32) (n : Fin 4096) (j : Fin 64) :
    kv_main_v26 (F := Ideal) dc (ix2 n j) = 1#1 ↔ ∃ k : Fin 64, k < j ∧ dc (ix2 n j) = dc (ix2 n k) := by
  unfold kv_main_v26
  have hR : S4096x64x64.Reduces [2] S4096x64 := by decide
  have hl : ∀ k : Fin 64, hR.lift (ix2 n j) k = ix3 n j k := fun k => by
    funext b; refine Fin.ext ?_
    match b with
    | ⟨0, _⟩ => rfl
    | ⟨1, _⟩ => rfl
    | ⟨2, _⟩ => rfl
  have hfold : Host.reduce IntOp.ori (kv_main_v25 (F := Ideal) dc) (kv_main_c (F := Ideal)) reducesTo_S4096x64x64_S4096x64_d2 h_S_ (ix2 n j)
      = (Finset.univ : Finset (Fin 64)).fold IntOp.ori 0#1 (fun k : Fin 64 => kv_main_v25 (F := Ideal) dc (ix3 n j k)) := by
    rw [Host.reduce_eq_fold_single IntOp.ori _ _ reducesTo_S4096x64x64_S4096x64_d2 hR h_S_ (ix2 n j)]
    show (Finset.univ : Finset (Fin 64)).fold IntOp.ori 0#1 (fun k : Fin 64 => kv_main_v25 (F := Ideal) dc (hR.lift (ix2 n j) k)) = _
    simp only [hl]
  rw [hfold, fold_ori_eq_one]
  constructor
  · rintro ⟨k, _, hk⟩
    exact ⟨k, ((v25_apply dc n j k).1 hk).2, ((v25_apply dc n j k).1 hk).1⟩
  · rintro ⟨k, hlt, he⟩
    exact ⟨k, Finset.mem_univ _, (v25_apply dc n j k).2 ⟨he, hlt⟩⟩

/-- Keep (n, j): no earlier don't-care word of the row equals the j-th, and the j-th is not the target's. -/
def keepP (t : Cert.Spec.ST.Idx → BitVec 32) (dc : Cert.Spec.SD.Idx → BitVec 32) (n : Fin 4096) (j : Fin 64) : Prop :=
  (¬ ∃ k : Fin 64, k < j ∧ dc (ix2 n j) = dc (ix2 n k)) ∧ dc (ix2 n j) ≠ t (ix1 n)

instance (t : Cert.Spec.ST.Idx → BitVec 32) (dc : Cert.Spec.SD.Idx → BitVec 32) (n : Fin 4096) (j : Fin 64) : Decidable (keepP t dc n j) := by
  unfold keepP; infer_instance

theorem v31_apply (t : Cert.Spec.ST.Idx → BitVec 32) (dc : Cert.Spec.SD.Idx → BitVec 32) (n : Fin 4096) (j : Fin 64) :
    kv_main_v31 (F := Ideal) t dc (ix2 n j) = 1#1 ↔ keepP t dc n j := by
  show IntOp.andi (~~~ (kv_main_v26 (F := Ideal) dc (ix2 n j)))
    (IntOp.cmpi .ne (dc (ix2 n j)) (kv_main_v29 (F := Ideal) t (ix2 n j))) = 1#1 ↔ keepP t dc n j
  unfold keepP
  rw [IntOp.andi_eq_one, IntOp.not_eq_one, v26_apply, IntOp.cmpi_ne, v29_apply]

theorem v33_apply (t : Cert.Spec.ST.Idx → BitVec 32) (dc : Cert.Spec.SD.Idx → BitVec 32) (n : Fin 4096) (j : Fin 64) :
    kv_main_v33 (F := Ideal) t dc (ix2 n j) = (((if keepP t dc n j then (1 : ℝ) else 0) : ℝ) : EReal) := by
  show ((((kv_main_v31 (F := Ideal) t dc (ix2 n j)).toNat : ℝ)) : EReal) = _
  by_cases hk : keepP t dc n j
  · rw [if_pos hk, (v31_apply t dc n j).2 hk]; simp
  · rw [if_neg hk, eq_zero_of_ne_one (fun e => hk ((v31_apply t dc n j).1 e))]; simp

/-! ## The row total -/

theorem v35_apply (x : Cert.Spec.SX.Idx → EReal) (t : Cert.Spec.ST.Idx → BitVec 32) (dc : Cert.Spec.SD.Idx → BitVec 32) (n : Fin 4096) :
    kv_main_v35 (F := Ideal) x t dc (ix1 n) = 0 + ∑ j : Fin 64, kv_main_v34 (F := Ideal) x t dc (ix2 n j) := by
  unfold kv_main_v35
  have hR : S4096x64.Reduces [1] S4096 := by decide
  have hl : ∀ j : Fin 64, hR.lift (ix1 n) j = ix2 n j := fun j => by
    funext b; refine Fin.ext ?_
    match b with
    | ⟨0, _⟩ => rfl
    | ⟨1, _⟩ => rfl
  refine (hostReduceAdd_apply _ _ _ _ _).trans ?_
  refine (Ideal.hostReduceAdd_single reducesTo_S4096x64_S4096_d1 hR _ _ _).trans ?_
  show Ideal.ofBits .f32 0x00000000#32 + ∑ j : Fin 64, kv_main_v34 (F := Ideal) x t dc (hR.lift (ix1 n) j)
    = 0 + ∑ j : Fin 64, kv_main_v34 (F := Ideal) x t dc (ix2 n j)
  rw [Ideal.ofBits_zero_f32]
  exact congrArg (fun s : EReal => 0 + s)
    (Finset.sum_congr rfl (fun j _ => congrArg (kv_main_v34 (F := Ideal) x t dc) (hl j)))

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem idxw_zero (t : Cert.Spec.ST.Idx → BitVec 32) (dc : Cert.Spec.SD.Idx → BitVec 32) (n : Fin 4096) : idxw t dc n (0 : Fin 65) = t (ix1 n) := by
  unfold idxw; exact dif_pos rfl

theorem idxw_succ (t : Cert.Spec.ST.Idx → BitVec 32) (dc : Cert.Spec.SD.Idx → BitVec 32) (n : Fin 4096) (j : Fin 64) :
    idxw t dc n (⟨j.val + 1, by omega⟩ : Fin 65) = dc (ix2 n j) := by
  unfold idxw; rw [dif_neg (Nat.succ_ne_zero _)]; rfl

/-- The row total before the row identity: an expression in the real parts of the row's entries. -/
theorem v38_apply {rows : S4096x1.Idx → EReal} {x : Cert.Spec.SX.Idx → EReal} {t : Cert.Spec.ST.Idx → BitVec 32}
    {dc : Cert.Spec.SD.Idx → BitVec 32} (h : Cert.Spec.InRange x t dc)
    (hrows : ∀ n : Fin 4096, rows (ix2 n (0 : Fin 1)) = ∑ c : Fin 10000, x (ix2 n c) * x (ix2 n c)) (n : Fin 4096) :
    kv_main_v38 (F := Ideal) rows x t dc (ix1 n)
      = (((∑ c : Fin 10000, Cert.Spec.xr x n c * Cert.Spec.xr x n c) + (1 - 2 * Cert.Spec.xr x n (colOf (t (ix1 n))))
          + -(∑ j : Fin 64, (Cert.Spec.xr x n (colOf (dc (ix2 n j))) * Cert.Spec.xr x n (colOf (dc (ix2 n j))))
                * (if keepP t dc n j then (1 : ℝ) else 0)) : ℝ) : EReal) := by
  have hx : ∀ c : Fin 10000, x (ix2 n c) = ((Cert.Spec.xr x n c : ℝ) : EReal) := fun c => by
    obtain ⟨r, hr⟩ := h.1 (ix2 n c)
    unfold Cert.Spec.xr; rw [hr, EReal.toReal_coe]
  show (kv_main_v1 (F := Ideal) rows (ix1 n) + kv_main_v11 (F := Ideal) x t dc (ix1 n))
    + -(kv_main_v35 (F := Ideal) x t dc (ix1 n)) = _
  rw [v1_apply, hrows, v11_apply, v6_apply, v4_apply h, idxw_zero, hx, v35_apply]
  have hs : ∀ j : Fin 64, kv_main_v34 (F := Ideal) x t dc (ix2 n j)
      = (((Cert.Spec.xr x n (colOf (dc (ix2 n j))) * Cert.Spec.xr x n (colOf (dc (ix2 n j))))
          * (if keepP t dc n j then (1 : ℝ) else 0) : ℝ) : EReal) := fun j => by
    show (kv_main_v7 (F := Ideal) x t dc (ix2 n j) * kv_main_v7 (F := Ideal) x t dc (ix2 n j))
      * kv_main_v33 (F := Ideal) t dc (ix2 n j) = _
    rw [v7_apply, v4_apply h, idxw_succ, hx, v33_apply, EReal.coe_mul, EReal.coe_mul]
  rw [Finset.sum_congr rfl (fun j _ => hs j), Finset.sum_congr rfl (fun c _ => by rw [hx c, ← EReal.coe_mul]),
    ← coe_sum, ← coe_sum, zero_add]
  rw [EReal.coe_add, EReal.coe_add, EReal.coe_sub, EReal.coe_mul, EReal.coe_neg, EReal.coe_one]

/-! ## The row identity, and the total -/

theorem colOf_inj {w w' : BitVec 32} (h : 0 ≤ w.toInt ∧ w.toInt < 10000) (h' : 0 ≤ w'.toInt ∧ w'.toInt < 10000) :
    colOf w = colOf w' ↔ w = w' := by
  constructor
  · intro e
    have e1 : ((colOf w).val : ℤ) = ((colOf w').val : ℤ) := by rw [e]
    rw [colOf_val h, colOf_val h'] at e1
    exact BitVec.eq_of_toInt_eq e1
  · rintro rfl; rfl

theorem colOf_eq_iff {w : BitVec 32} (h : 0 ≤ w.toInt ∧ w.toInt < 10000) (c : Fin 10000) :
    colOf w = c ↔ w.toInt = (c.val : ℤ) := by
  rw [← colOf_val h]
  constructor
  · rintro rfl; rfl
  · intro e; exact Fin.ext (by exact_mod_cast e)

/-- Row n's total is the row's sum of element losses. -/
theorem row_eq {rows : S4096x1.Idx → EReal} {x : Cert.Spec.SX.Idx → EReal} {t : Cert.Spec.ST.Idx → BitVec 32}
    {dc : Cert.Spec.SD.Idx → BitVec 32} (h : Cert.Spec.InRange x t dc)
    (hrows : ∀ n : Fin 4096, rows (ix2 n (0 : Fin 1)) = ∑ c : Fin 10000, x (ix2 n c) * x (ix2 n c)) (n : Fin 4096) :
    kv_main_v38 (F := Ideal) rows x t dc (ix1 n) = ((∑ c : Fin 10000, Cert.Spec.per x t dc n c : ℝ) : EReal) := by
  rw [v38_apply h hrows n]
  have hT := h.2.1 (ix1 n)
  have hD := fun j : Fin 64 => h.2.2 (ix2 n j)
  have hp : ∀ j : Fin 64, keepP t dc n j ↔ ((¬ ∃ k : Fin 64, k < j ∧ colOf (dc (ix2 n j)) = colOf (dc (ix2 n k)))
      ∧ colOf (dc (ix2 n j)) ≠ colOf (t (ix1 n))) := fun j => by
    unfold keepP
    rw [Ne, Ne, colOf_inj (hD j) hT]
    simp only [colOf_inj (hD j) (hD _)]
  have hq : ∀ c : Fin 10000, (∃ j, Cert.Spec.dcv dc n j = (c.val : ℤ)) ↔ ∃ j : Fin 64, colOf (dc (ix2 n j)) = c := fun c =>
    exists_congr (fun j => (colOf_eq_iff (hD j) c).symm)
  have key := Cert.RowIdentity.row_identity' (fun c => Cert.Spec.xr x n c) (colOf (t (ix1 n)))
    (fun j => colOf (dc (ix2 n j))) (fun j => keepP t dc n j) (fun c => ∃ j, Cert.Spec.dcv dc n j = (c.val : ℤ)) hp hq
  refine congrArg _ (key.trans (Finset.sum_congr rfl (fun c _ => ?_)))
  unfold Cert.Spec.per
  have hc : c = colOf (t (ix1 n)) ↔ (c.val : ℤ) = Cert.Spec.tgt t n :=
    ⟨fun e => ((colOf_eq_iff hT c).1 e.symm).symm, fun e => ((colOf_eq_iff hT c).2 e.symm).symm⟩
  by_cases h1 : c = colOf (t (ix1 n))
  · simp only [if_pos h1, if_pos (hc.1 h1)]
  · simp only [if_neg h1, if_neg (fun e => h1 (hc.2 e))]
    by_cases h2 : ∃ j, Cert.Spec.dcv dc n j = (c.val : ℤ)
    · rw [if_pos h2, if_pos h2]
    · rw [if_neg h2, if_neg h2]

/-- The host tail's value: the loss. -/
theorem ker_eq (rows : Cert.KernelIdeal.S4096x1.Idx → EReal) (x : Cert.Spec.SX.Idx → EReal) (t : Cert.Spec.ST.Idx → BitVec 32)
    (dc : Cert.Spec.SD.Idx → BitVec 32) (h : Cert.Spec.InRange x t dc)
    (hrows : ∀ n : Fin 4096, rows (ValueIdx.ix2 n (0 : Fin 1)) = ∑ c : Fin 10000, x (ValueIdx.ix2 n c) * x (ValueIdx.ix2 n c)) :
    Cert.KernelIdeal.Stages.kv_main_v39 (F := Ideal) rows x t dc = Cert.Spec.G x t dc := by
  funext i
  unfold kv_main_v39 Cert.Spec.G Cert.Spec.lossR
  refine (hostReduceAdd_apply _ _ _ _ _).trans ?_
  refine (Ideal.hostReduceAdd_total reducesTo_S4096_S_d0 (fun b => b.elim0) _ _ i).trans ?_
  show Ideal.ofBits .f32 0x00000000#32 + ∑ j : S4096.Idx, kv_main_v38 (F := Ideal) rows x t dc j = _
  rw [Ideal.ofBits_zero_f32, zero_add, coe_sum,
    ← Equiv.sum_comp (idxEquiv1 (n := 4096)).symm (kv_main_v38 (F := Ideal) rows x t dc)]
  exact Finset.sum_congr rfl (fun n _ => row_eq h hrows n)

end Cert.KernelIdeal.TailValue

end
-- ==== Proof.RefRun.lean ====
/-
  The reference program's run, read back as the stage functions of its arguments.

  The 43 host operations are cut in two before the concatenation: the first 21 end with the two
  broadcasts the concatenation joins, the last 22 begin with it. The fold of the whole list over
  contents V is the fold of the second part over the fold of the first. What the first part leaves
  at the buffers the second reads is computed for arbitrary contents; the second part is then read
  over arbitrary contents W of which only those buffers' values are known.
-/
import proofs.«425376_j74869869904427_3_alg».proof.Proof.RefRunP
import proofs.«425376_j74869869904427_3_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The first 21 operations: up to the two broadcasts into 4096 × 64 × 1. -/
abbrev opsA : List (HloOp τ sig (Elt F)) :=
  [ nullary main_v0 (iotaInDim S4096 32 0),
    unary main_v0 main_v1 (broadcastInDim S4096x1 ![0] bcast_S4096_S4096x1_0 : (⟨S4096, .i32⟩ : BufTy).Contents (Elt F) → (⟨S4096x1, .i32⟩ : BufTy).Contents (Elt F)),
    nullary main_c (constantI S_ 1 0#1),
    unary main_c main_v2 (broadcastInDim S4096x10000 ![] bcast_S_S4096x10000 : (⟨S_, .i1⟩ : BufTy).Contents (Elt F) → (⟨S4096x10000, .i1⟩ : BufTy).Contents (Elt F)),
    nullary main_c_0 (constantI S_ 32 0#32),
    unary main_c_0 main_v3 (broadcastInDim S4096x1 ![] bcast_S_S4096x1 : (⟨S_, .i32⟩ : BufTy).Contents (Elt F) → (⟨S4096x1, .i32⟩ : BufTy).Contents (Elt F)),
    binary main_v1 main_v3 main_v4 (cmpi .slt : (⟨S4096x1, .i32⟩ : BufTy).Contents (Elt F) → (⟨S4096x1, .i32⟩ : BufTy).Contents (Elt F) → (⟨S4096x1, .i1⟩ : BufTy).Contents (Elt F)),
    nullary main_c_1 (constantI S_ 32 4096#32),
    unary main_c_1 main_v5 (broadcastInDim S4096x1 ![] bcast_S_S4096x1 : (⟨S_, .i32⟩ : BufTy).Contents (Elt F) → (⟨S4096x1, .i32⟩ : BufTy).Contents (Elt F)),
    binary main_v1 main_v5 main_v6 (addi : (⟨S4096x1, .i32⟩ : BufTy).Contents (Elt F) → (⟨S4096x1, .i32⟩ : BufTy).Contents (Elt F) → (⟨S4096x1, .i32⟩ : BufTy).Contents (Elt F)),
    ternary main_v4 main_v6 main_v1 main_v7 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_2 (constantI S_ 32 0#32),
    unary main_c_2 main_v8 (broadcastInDim S4096x64 ![] bcast_S_S4096x64 : (⟨S_, .i32⟩ : BufTy).Contents (Elt F) → (⟨S4096x64, .i32⟩ : BufTy).Contents (Elt F)),
    binary main_arg2 main_v8 main_v9 (cmpi .slt : (⟨S4096x64, .i32⟩ : BufTy).Contents (Elt F) → (⟨S4096x64, .i32⟩ : BufTy).Contents (Elt F) → (⟨S4096x64, .i1⟩ : BufTy).Contents (Elt F)),
    nullary main_c_3 (constantI S_ 32 10000#32),
    unary main_c_3 main_v10 (broadcastInDim S4096x64 ![] bcast_S_S4096x64 : (⟨S_, .i32⟩ : BufTy).Contents (Elt F) → (⟨S4096x64, .i32⟩ : BufTy).Contents (Elt F)),
    binary main_arg2 main_v10 main_v11 (addi : (⟨S4096x64, .i32⟩ : BufTy).Contents (Elt F) → (⟨S4096x64, .i32⟩ : BufTy).Contents (Elt F) → (⟨S4096x64, .i32⟩ : BufTy).Contents (Elt F)),
    ternary main_v9 main_v11 main_arg2 main_v12 (select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F)),
    unary main_v7 main_v13 (broadcastInDim S4096x64 ![0, 1] bcast_S4096x1_S4096x64_0_1 : (⟨S4096x1, .i32⟩ : BufTy).Contents (Elt F) → (⟨S4096x64, .i32⟩ : BufTy).Contents (Elt F)),
    unary main_v13 main_v14 (broadcastInDim S4096x64x1 ![0, 1] bcast_S4096x64_S4096x64x1_0_1 : (⟨S4096x64, .i32⟩ : BufTy).Contents (Elt F) → (⟨S4096x64x1, .i32⟩ : BufTy).Contents (Elt F)),
    unary main_v12 main_v15 (broadcastInDim S4096x64x1 ![0, 1] bcast_S4096x64_S4096x64x1_0_1 : (⟨S4096x64, .i32⟩ : BufTy).Contents (Elt F) → (⟨S4096x64x1, .i32⟩ : BufTy).Contents (Elt F)) ]

/-- The last 22 operations: from the concatenation to the sum. -/
abbrev opsB : List (HloOp τ sig (Elt F)) :=
  [ binary main_v14 main_v15 main_v16 ((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F)),
    nullary main_c_4 (constantI S_ 1 1#1),
    unary main_c_4 main_v17 (broadcastInDim S4096x64 ![] bcast_S_S4096x64 : (⟨S_, .i1⟩ : BufTy).Contents (Elt F) → (⟨S4096x64, .i1⟩ : BufTy).Contents (Elt F)),
    ternary main_v2 main_v16 main_v17 main_v18 ((fun x i u => Host.scatter scatter_S4096x10000_S4096x64x2_S4096x64_n_01_01_2 (fun _ b => b) x i u) : (⟨S4096x10000, .i1⟩ : BufTy).Contents (Elt F) → (⟨S4096x64x2, .i32⟩ : BufTy).Contents (Elt F) → (⟨S4096x64, .i1⟩ : BufTy).Contents (Elt F) → (⟨S4096x10000, .i1⟩ : BufTy).Contents (Elt F)),
    nullary main_v19 (iotaInDim S10000 32 0),
    unary main_v19 main_v20 (broadcastInDim S1x10000 ![1] bcast_S10000_S1x10000_1 : (⟨S10000, .i32⟩ : BufTy).Contents (Elt F) → (⟨S1x10000, .i32⟩ : BufTy).Contents (Elt F)),
    unary main_arg1 main_v21 (broadcastInDim S4096x1 ![0] bcast_S4096_S4096x1_0 : (⟨S4096, .i32⟩ : BufTy).Contents (Elt F) → (⟨S4096x1, .i32⟩ : BufTy).Contents (Elt F)),
    unary main_v20 main_v22 (broadcastInDim S4096x10000 ![0, 1] bcast_S1x10000_S4096x10000_0_1 : (⟨S1x10000, .i32⟩ : BufTy).Contents (Elt F) → (⟨S4096x10000, .i32⟩ : BufTy).Contents (Elt F)),
    unary main_v21 main_v23 (broadcastInDim S4096x10000 ![0, 1] bcast_S4096x1_S4096x10000_0_1 : (⟨S4096x1, .i32⟩ : BufTy).Contents (Elt F) → (⟨S4096x10000, .i32⟩ : BufTy).Contents (Elt F)),
    binary main_v22 main_v23 main_v24 (cmpi .eq : (⟨S4096x10000, .i32⟩ : BufTy).Contents (Elt F) → (⟨S4096x10000, .i32⟩ : BufTy).Contents (Elt F) → (⟨S4096x10000, .i1⟩ : BufTy).Contents (Elt F)),
    nullary main_cst (constant S_ .f32 0x3F800000#32),
    unary main_cst main_v25 (broadcastInDim S4096x10000 ![] bcast_S_S4096x10000 : (⟨S_, .f32⟩ : BufTy).Contents (Elt F) → (⟨S4096x10000, .f32⟩ : BufTy).Contents (Elt F)),
    binary main_v25 main_arg0 main_v26 (subf : (⟨S4096x10000, .f32⟩ : BufTy).Contents (Elt F) → (⟨S4096x10000, .f32⟩ : BufTy).Contents (Elt F) → (⟨S4096x10000, .f32⟩ : BufTy).Contents (Elt F)),
    binary main_v26 main_v26 main_v27 (mulf : (⟨S4096x10000, .f32⟩ : BufTy).Contents (Elt F) → (⟨S4096x10000, .f32⟩ : BufTy).Contents (Elt F) → (⟨S4096x10000, .f32⟩ : BufTy).Contents (Elt F)),
    binary main_arg0 main_arg0 main_v28 (mulf : (⟨S4096x10000, .f32⟩ : BufTy).Contents (Elt F) → (⟨S4096x10000, .f32⟩ : BufTy).Contents (Elt F) → (⟨S4096x10000, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S4096x10000, .f32⟩) main_call0_v1) (broadcastInDim S4096x10000 ![] bcast_S_S4096x10000),
    TRef.ternary (TRef.of (T := ⟨S4096x10000, .i1⟩) main_v18) (TRef.of (T := ⟨S4096x10000, .f32⟩) main_call0_v1) (TRef.of (T := ⟨S4096x10000, .f32⟩) main_v28) (TRef.of (T := ⟨S4096x10000, .f32⟩) main_v29) select,
    TRef.ternary (TRef.of (T := ⟨S4096x10000, .i1⟩) main_v24) (TRef.of (T := ⟨S4096x10000, .f32⟩) main_v27) (TRef.of (T := ⟨S4096x10000, .f32⟩) main_v29) (TRef.of (T := ⟨S4096x10000, .f32⟩) main_v30) select,
    nullary main_cst_6 (constant S_ .f32 0x00000000#32),
    binary main_v30 main_cst_6 main_v31 ((fun x v => Host.reduceAdd x v reducesTo_S4096x10000_S_d0_1 h_S_) : (⟨S4096x10000, .f32⟩ : BufTy).Contents (Elt F) → (⟨S_, .f32⟩ : BufTy).Contents (Elt F) → (⟨S_, .f32⟩ : BufTy).Contents (Elt F)) ]

set_option maxRecDepth 8192 in
theorem ops_split : (RunP.ops : List (HloOp τ sig (Elt F))) = opsA ++ opsB := rfl

/-! ## What the first part leaves -/

set_option maxRecDepth 8192 in
theorem A_v14 (V : Valuation τ sig (Elt F)) :
    after opsA V (Proc.devRef .tc main_v14) = ReadP.val_main_v14 (F := F) := by
  after_results_simp <;> rfl

set_option maxRecDepth 8192 in
theorem A_v15 (V : Valuation τ sig (Elt F)) :
    after opsA V (Proc.devRef .tc main_v15) = ReadP.val_main_v15 (F := F) (V (Proc.devRef .tc main_arg2)) := by
  after_results_simp <;> rfl

set_option maxRecDepth 8192 in
theorem A_v2 (V : Valuation τ sig (Elt F)) :
    after opsA V (Proc.devRef .tc main_v2) = ReadP.val_main_v2 (F := F) := by
  after_results_simp <;> rfl

set_option maxRecDepth 8192 in
theorem A_arg0 (V : Valuation τ sig (Elt F)) :
    after opsA V (Proc.devRef .tc main_arg0) = V (Proc.devRef .tc main_arg0) := by
  after_results_simp <;> rfl

set_option maxRecDepth 8192 in
theorem A_arg1 (V : Valuation τ sig (Elt F)) :
    after opsA V (Proc.devRef .tc main_arg1) = V (Proc.devRef .tc main_arg1) := by
  after_results_simp <;> rfl

set_option maxRecDepth 8192 in
theorem A_arg2 (V : Valuation τ sig (Elt F)) :
    after opsA V (Proc.devRef .tc main_arg2) = V (Proc.devRef .tc main_arg2) := by
  after_results_simp <;> rfl

/-! ## Transport along a literal reference's own type is the identity

A called function's operations move a value between the type its reference carries and the
reference's own buffer type; at a literal reference the two types are the same, so the move is
the identity. -/

theorem toBuf_main_v30 (v : (⟨S4096x10000, .f32⟩ : BufTy).Contents (Elt F)) :
    (TRef.of (sig := sig) (T := ⟨S4096x10000, .f32⟩) main_v30).toBuf v = v := rfl
theorem ofBuf_main_v30 (v : (⟨S4096x10000, .f32⟩ : BufTy).Contents (Elt F)) :
    (TRef.of (sig := sig) (T := ⟨S4096x10000, .f32⟩) main_v30).ofBuf v = v := rfl

theorem toBuf_main_v29 (v : (⟨S4096x10000, .f32⟩ : BufTy).Contents (Elt F)) :
    (TRef.of (sig := sig) (T := ⟨S4096x10000, .f32⟩) main_v29).toBuf v = v := rfl
theorem ofBuf_main_v29 (v : (⟨S4096x10000, .f32⟩ : BufTy).Contents (Elt F)) :
    (TRef.of (sig := sig) (T := ⟨S4096x10000, .f32⟩) main_v29).ofBuf v = v := rfl

theorem toBuf_main_call0_v1 (v : (⟨S4096x10000, .f32⟩ : BufTy).Contents (Elt F)) :
    (TRef.of (sig := sig) (T := ⟨S4096x10000, .f32⟩) main_call0_v1).toBuf v = v := rfl
theorem ofBuf_main_call0_v1 (v : (⟨S4096x10000, .f32⟩ : BufTy).Contents (Elt F)) :
    (TRef.of (sig := sig) (T := ⟨S4096x10000, .f32⟩) main_call0_v1).ofBuf v = v := rfl

theorem toBuf_main_call0_v0 (v : (⟨S_, .f32⟩ : BufTy).Contents (Elt F)) :
    (TRef.of (sig := sig) (T := ⟨S_, .f32⟩) main_call0_v0).toBuf v = v := rfl
theorem ofBuf_main_call0_v0 (v : (⟨S_, .f32⟩ : BufTy).Contents (Elt F)) :
    (TRef.of (sig := sig) (T := ⟨S_, .f32⟩) main_call0_v0).ofBuf v = v := rfl

theorem toBuf_main_cst_5 (v : (⟨S_, .f32⟩ : BufTy).Contents (Elt F)) :
    (TRef.of (sig := sig) (T := ⟨S_, .f32⟩) main_cst_5).toBuf v = v := rfl
theorem ofBuf_main_cst_5 (v : (⟨S_, .f32⟩ : BufTy).Contents (Elt F)) :
    (TRef.of (sig := sig) (T := ⟨S_, .f32⟩) main_cst_5).ofBuf v = v := rfl

theorem toBuf_main_v24 (v : (⟨S4096x10000, .i1⟩ : BufTy).Contents (Elt F)) :
    (TRef.of (sig := sig) (T := ⟨S4096x10000, .i1⟩) main_v24).toBuf v = v := rfl
theorem ofBuf_main_v24 (v : (⟨S4096x10000, .i1⟩ : BufTy).Contents (Elt F)) :
    (TRef.of (sig := sig) (T := ⟨S4096x10000, .i1⟩) main_v24).ofBuf v = v := rfl

theorem toBuf_main_v27 (v : (⟨S4096x10000, .f32⟩ : BufTy).Contents (Elt F)) :
    (TRef.of (sig := sig) (T := ⟨S4096x10000, .f32⟩) main_v27).toBuf v = v := rfl
theorem ofBuf_main_v27 (v : (⟨S4096x10000, .f32⟩ : BufTy).Contents (Elt F)) :
    (TRef.of (sig := sig) (T := ⟨S4096x10000, .f32⟩) main_v27).ofBuf v = v := rfl

theorem toBuf_main_v18 (v : (⟨S4096x10000, .i1⟩ : BufTy).Contents (Elt F)) :
    (TRef.of (sig := sig) (T := ⟨S4096x10000, .i1⟩) main_v18).toBuf v = v := rfl
theorem ofBuf_main_v18 (v : (⟨S4096x10000, .i1⟩ : BufTy).Contents (Elt F)) :
    (TRef.of (sig := sig) (T := ⟨S4096x10000, .i1⟩) main_v18).ofBuf v = v := rfl

theorem toBuf_main_v28 (v : (⟨S4096x10000, .f32⟩ : BufTy).Contents (Elt F)) :
    (TRef.of (sig := sig) (T := ⟨S4096x10000, .f32⟩) main_v28).toBuf v = v := rfl
theorem ofBuf_main_v28 (v : (⟨S4096x10000, .f32⟩ : BufTy).Contents (Elt F)) :
    (TRef.of (sig := sig) (T := ⟨S4096x10000, .f32⟩) main_v28).ofBuf v = v := rfl

/-! ## The second part over contents known at the buffers it reads -/

set_option maxRecDepth 8192 in
theorem B_arg0 (W : Valuation τ sig (Elt F)) :
    after opsB W (Proc.devRef .tc main_arg0) = W (Proc.devRef .tc main_arg0) := by
  after_results_simp <;> rfl

set_option maxRecDepth 8192 in
theorem B_arg1 (W : Valuation τ sig (Elt F)) :
    after opsB W (Proc.devRef .tc main_arg1) = W (Proc.devRef .tc main_arg1) := by
  after_results_simp <;> rfl

set_option maxRecDepth 8192 in
theorem B_arg2 (W : Valuation τ sig (Elt F)) :
    after opsB W (Proc.devRef .tc main_arg2) = W (Proc.devRef .tc main_arg2) := by
  after_results_simp <;> rfl

set_option maxRecDepth 8192 in
set_option maxHeartbeats 1000000 in
theorem B_v31 (W : Valuation τ sig (Elt F))
    (x0 : (⟨S4096x10000, .f32⟩ : BufTy).Contents (Elt F)) (x1 : (⟨S4096, .i32⟩ : BufTy).Contents (Elt F))
    (x2 : (⟨S4096x64, .i32⟩ : BufTy).Contents (Elt F))
    (h14 : W (Proc.devRef .tc main_v14) = ReadP.val_main_v14 (F := F))
    (h15 : W (Proc.devRef .tc main_v15) = ReadP.val_main_v15 (F := F) x2)
    (h2 : W (Proc.devRef .tc main_v2) = ReadP.val_main_v2 (F := F))
    (h0 : W (Proc.devRef .tc main_arg0) = x0)
    (h1 : W (Proc.devRef .tc main_arg1) = x1) :
    after opsB W (Proc.devRef .tc main_v31) = ReadP.val_main_v31 (F := F) x0 x1 x2 := by
  after_results_simp
  simp only [toBuf_main_v30, ofBuf_main_v30, toBuf_main_v29, ofBuf_main_v29, toBuf_main_call0_v1, ofBuf_main_call0_v1, toBuf_main_call0_v0, ofBuf_main_call0_v0, toBuf_main_cst_5, ofBuf_main_cst_5, toBuf_main_v24, ofBuf_main_v24, toBuf_main_v27, ofBuf_main_v27, toBuf_main_v18, ofBuf_main_v18, toBuf_main_v28, ofBuf_main_v28]
  rw [h14, h15, h2, h0, h1]
  rfl

/-! ## The run -/

set_option maxRecDepth 8192 in
/-- On every device, from any memory with zero counters: every weakly fair execution of the reference
    terminates with the result buffer at the last stage function of the three arguments' launch
    contents, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = Cert.ReferenceIdeal.ReadP.val_main_v31 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v31).trans (by
          rw [ops_split, after_append]
          exact B_v31 _ _ _ _ (A_v14 _) ((A_v15 _).trans rfl) (A_v2 _) ((A_arg0 _).trans rfl) ((A_arg1 _).trans rfl)),
       (h c main_arg0).trans (by rw [ops_split, after_append, B_arg0, A_arg0]),
       (h c main_arg1).trans (by rw [ops_split, after_append, B_arg1, A_arg1]),
       (h c main_arg2).trans (by rw [ops_split, after_append, B_arg2, A_arg2])⟩)
    (Cert.ReferenceIdeal.RunP.run m ρ)

end Cert.ReferenceIdeal.HandRun

end
-- ==== Proof.LibElemGS.lean ====
/-
  jax's two-index element access on a matrix, read at an index.

  `x.at[r, c].add(u)` with index arrays r, c of one shape [N, C] lowers to a scatter whose index vectors are the
  pairs (r[n,k], c[n,k]) stacked on a last axis of size 2, with no window axes: element (b, c') of the result is the
  operand's element plus the sum of the updates u[n,k] whose pair reads (b, c') (pairs outside the matrix are dropped).
  `x[r, c]` lowers to a gather of 1×1 slices with both axes collapsed: element (n, k) of the result is the operand's
  element at the pair (r[n,k], c[n,k]), each component read signed and clamped into range.
-/
import Idealize.ShloMosaic.PureOps.Ideal
import Idealize.ShloMosaic.Lib.ValueIdx
import Mathlib.Algebra.BigOperators.Fin

noncomputable section

namespace Cert.Lib.ElemGS

open Idealize.ShloMosaic Idealize.ShloMosaic.ValueIdx

/-! ## Elements scattered and added -/

/-- The dimension numbers of an element scatter: operand `[B, C]`, scatter indices `[N, K, 2]`, updates `[N, K]`;
    no update axis is a window axis, both operand axes are inserted, and the two components of the index vector (the
    last axis of the scatter indices) name the operand's row and column in that order. -/
abbrev elemScatterDims (B C N K : ℕ)
    (wf : ScatterDims.WF ⟨2, ![B, C]⟩ ⟨3, ![N, K, 2]⟩ ⟨2, ![N, K]⟩ [] [0, 1] [0, 1] 2) :
    ScatterDims ⟨2, ![B, C]⟩ ⟨3, ![N, K, 2]⟩ ⟨2, ![N, K]⟩ where
  updateWindowDims := []
  insertedWindowDims := [0, 1]
  scatterDimsToOperandDims := [0, 1]
  indexVectorDim := 2
  wf := wf

section ElemScatter
variable {B C N K w : ℕ} (wf : ScatterDims.WF ⟨2, ![B, C]⟩ ⟨3, ![N, K, 2]⟩ ⟨2, ![N, K]⟩ [] [0, 1] [0, 1] 2)
  (idx : IVec ⟨3, ![N, K, 2]⟩ w) (n : Fin N) (k : Fin K)

/-- On the row axis the window of update `(n, k)` starts at component 0 of its index pair, read signed. -/
theorem elemScatter_start_row :
    (elemScatterDims B C N K wf).start (ix2 n k) idx 0 = (idx (ix3 n k (0 : Fin 2))).toInt := by
  unfold ScatterDims.start
  rw [dif_pos (show (0 : Fin 2) ∈ (elemScatterDims B C N K wf).scatterDimsToOperandDims from
    List.mem_cons_self)]
  congr 2
  funext a
  refine Fin.ext ?_
  match a with
  | ⟨0, _⟩ => rfl
  | ⟨1, _⟩ => rfl
  | ⟨2, _⟩ => rfl

/-- On the column axis the window of update `(n, k)` starts at component 1 of its index pair, read signed. -/
theorem elemScatter_start_col :
    (elemScatterDims B C N K wf).start (ix2 n k) idx 1 = (idx (ix3 n k (1 : Fin 2))).toInt := by
  unfold ScatterDims.start
  rw [dif_pos (show (1 : Fin 2) ∈ (elemScatterDims B C N K wf).scatterDimsToOperandDims from
    List.mem_cons_of_mem _ List.mem_cons_self)]
  congr 2
  funext a
  refine Fin.ext ?_
  match a with
  | ⟨0, _⟩ => rfl
  | ⟨1, _⟩ => rfl
  | ⟨2, _⟩ => rfl

/-- Both operand axes are inserted: none is kept for a window. -/
theorem elemScatter_sKept : (elemScatterDims B C N K wf).sKept = [] :=
  (by decide : (List.finRange 2).filter (fun a : Fin 2 => decide (a ∉ ([0, 1] : List (Fin 2)))) = [])

/-- An inserted axis has window coordinate `0`. -/
theorem elemScatter_window (a : Fin 2) : (elemScatterDims B C N K wf).window (ix2 n k) a = 0 := by
  unfold ScatterDims.window
  rw [dif_neg]
  intro hmem
  rw [elemScatter_sKept] at hmem
  exact absurd hmem List.not_mem_nil

/-- Update `(n, k)` of an element scatter lands at `(b, c)` exactly when its index pair, read signed, is `(b, c)`;
    a pair outside the matrix lands nowhere. -/
theorem resultIdx?_elemDims_eq_some_iff (b : Fin B) (c : Fin C) :
    (elemScatterDims B C N K wf).resultIdx? (ix2 n k) idx = some (ix2 b c)
      ↔ (idx (ix3 n k (0 : Fin 2))).toInt = (b.val : ℤ) ∧ (idx (ix3 n k (1 : Fin 2))).toInt = (c.val : ℤ) := by
  have hs0 := elemScatter_start_row wf idx n k
  have hs1 := elemScatter_start_col wf idx n k
  have hw0 := elemScatter_window wf n k 0
  have hw1 := elemScatter_window wf n k 1
  have hb := b.isLt
  have hc := c.isLt
  unfold ScatterDims.resultIdx?
  by_cases hin : (0 ≤ (idx (ix3 n k (0 : Fin 2))).toInt ∧ (idx (ix3 n k (0 : Fin 2))).toInt < (B : ℤ))
      ∧ (0 ≤ (idx (ix3 n k (1 : Fin 2))).toInt ∧ (idx (ix3 n k (1 : Fin 2))).toInt < (C : ℤ))
  · rw [dif_pos (by
      intro a
      match a with
      | ⟨0, _⟩ =>
        show 0 ≤ (elemScatterDims B C N K wf).start (ix2 n k) idx 0
            + (((elemScatterDims B C N K wf).window (ix2 n k) 0 : ℕ) : ℤ)
          ∧ (elemScatterDims B C N K wf).start (ix2 n k) idx 0
            + (((elemScatterDims B C N K wf).window (ix2 n k) 0 : ℕ) : ℤ) < (B : ℤ)
        rw [hs0, hw0]
        omega
      | ⟨1, _⟩ =>
        show 0 ≤ (elemScatterDims B C N K wf).start (ix2 n k) idx 1
            + (((elemScatterDims B C N K wf).window (ix2 n k) 1 : ℕ) : ℤ)
          ∧ (elemScatterDims B C N K wf).start (ix2 n k) idx 1
            + (((elemScatterDims B C N K wf).window (ix2 n k) 1 : ℕ) : ℤ) < (C : ℤ)
        rw [hs1, hw1]
        omega)]
    rw [Option.some_inj]
    constructor
    · intro hf
      have h0 : ((elemScatterDims B C N K wf).start (ix2 n k) idx 0
          + (((elemScatterDims B C N K wf).window (ix2 n k) 0 : ℕ) : ℤ)).toNat = b.val :=
        congrArg (fun f => (f 0).val) hf
      have h1 : ((elemScatterDims B C N K wf).start (ix2 n k) idx 1
          + (((elemScatterDims B C N K wf).window (ix2 n k) 1 : ℕ) : ℤ)).toNat = c.val :=
        congrArg (fun f => (f 1).val) hf
      rw [hs0, hw0] at h0
      rw [hs1, hw1] at h1
      exact ⟨by omega, by omega⟩
    · rintro ⟨ht0, ht1⟩
      funext a
      apply Fin.ext
      match a with
      | ⟨0, _⟩ =>
        show ((elemScatterDims B C N K wf).start (ix2 n k) idx 0
          + (((elemScatterDims B C N K wf).window (ix2 n k) 0 : ℕ) : ℤ)).toNat = b.val
        rw [hs0, hw0]
        omega
      | ⟨1, _⟩ =>
        show ((elemScatterDims B C N K wf).start (ix2 n k) idx 1
          + (((elemScatterDims B C N K wf).window (ix2 n k) 1 : ℕ) : ℤ)).toNat = c.val
        rw [hs1, hw1]
        omega
  · rw [dif_neg (by
      intro hall
      apply hin
      have h0 : 0 ≤ (elemScatterDims B C N K wf).start (ix2 n k) idx 0
            + (((elemScatterDims B C N K wf).window (ix2 n k) 0 : ℕ) : ℤ)
          ∧ (elemScatterDims B C N K wf).start (ix2 n k) idx 0
            + (((elemScatterDims B C N K wf).window (ix2 n k) 0 : ℕ) : ℤ) < (B : ℤ) := hall 0
      have h1 : 0 ≤ (elemScatterDims B C N K wf).start (ix2 n k) idx 1
            + (((elemScatterDims B C N K wf).window (ix2 n k) 1 : ℕ) : ℤ)
          ∧ (elemScatterDims B C N K wf).start (ix2 n k) idx 1
            + (((elemScatterDims B C N K wf).window (ix2 n k) 1 : ℕ) : ℤ) < (C : ℤ) := hall 1
      rw [hs0, hw0] at h0
      rw [hs1, hw1] at h1
      exact ⟨by omega, by omega⟩)]
    constructor
    · intro hf
      cases hf
    · rintro ⟨ht0, ht1⟩
      exfalso
      apply hin
      omega

end ElemScatter

/-- Where an element update lands, for any record with those dimension numbers: update `(n, k)` lands at `(b, c)`
    exactly when its index pair, read signed and not clamped, is `(b, c)`. -/
theorem resultIdx?_elem_eq_some_iff {B C N K w : ℕ} (d : ScatterDims ⟨2, ![B, C]⟩ ⟨3, ![N, K, 2]⟩ ⟨2, ![N, K]⟩)
    (hu : d.updateWindowDims = []) (hi : d.insertedWindowDims = [0, 1]) (hs : d.scatterDimsToOperandDims = [0, 1])
    (hv : d.indexVectorDim = 2) (idx : IVec ⟨3, ![N, K, 2]⟩ w) (n : Fin N) (k : Fin K) (b : Fin B) (c : Fin C) :
    d.resultIdx? (ix2 n k) idx = some (ix2 b c)
      ↔ (idx (ix3 n k (0 : Fin 2))).toInt = (b.val : ℤ) ∧ (idx (ix3 n k (1 : Fin 2))).toInt = (c.val : ℤ) := by
  obtain ⟨uw, iw, sd, iv, wf⟩ := d
  simp only at hu hi hs hv
  subst hu hi hs hv
  exact resultIdx?_elemDims_eq_some_iff wf idx n k b c

/-- The accumulating scatter of jax's `x.at[r, c].add(u)` read at an index: the operand's element plus the updates whose
    index pair, read signed, is that index. -/
theorem scatterAdd_elem_apply {B C N K w : ℕ} (d : ScatterDims ⟨2, ![B, C]⟩ ⟨3, ![N, K, 2]⟩ ⟨2, ![N, K]⟩)
    (hu : d.updateWindowDims = []) (hi : d.insertedWindowDims = [0, 1]) (hs : d.scatterDimsToOperandDims = [0, 1])
    (hv : d.indexVectorDim = 2)
    (x : FVec Ideal ⟨2, ![B, C]⟩ .f32) (idx : IVec ⟨3, ![N, K, 2]⟩ w) (upd : FVec Ideal ⟨2, ![N, K]⟩ .f32)
    (b : Fin B) (c : Fin C) :
    Host.scatterAdd (F := Ideal) d x idx upd (ix2 b c)
      = x (ix2 b c) + ∑ n : Fin N, ∑ k : Fin K,
          if (idx (ix3 n k (0 : Fin 2))).toInt = (b.val : ℤ) ∧ (idx (ix3 n k (1 : Fin 2))).toInt = (c.val : ℤ)
          then upd (ix2 n k) else 0 := by
  show Ideal.hostScatterAdd d x idx upd (ix2 b c) = _
  unfold Ideal.hostScatterAdd
  congr 1
  rw [Finset.sum_filter, sum_idx2]
  refine Finset.sum_congr rfl (fun n _ => Finset.sum_congr rfl (fun k _ => ?_))
  simp only [resultIdx?_elem_eq_some_iff d hu hi hs hv idx n k b c]

/-! ## Elements gathered -/

/-- The dimension numbers of an element gather: operand `[B, C]`, start indices `[N, K, 2]`, result `[N, K]`;
    the result has no offset axis, both operand axes are collapsed, the two components of the index vector (the last
    axis of the start indices) name the operand's row and column in that order, and the slices are `1 × 1`. -/
abbrev elemGatherDims (B C N K : ℕ)
    (wf : GatherDims.WF ⟨2, ![B, C]⟩ ⟨3, ![N, K, 2]⟩ ⟨2, ![N, K]⟩ [] [0, 1] [] [0, 1] [] 2 ![1, 1]) :
    GatherDims ⟨2, ![B, C]⟩ ⟨3, ![N, K, 2]⟩ ⟨2, ![N, K]⟩ where
  offsetDims := []
  collapsedSliceDims := [0, 1]
  operandBatchingDims := []
  startIndicesBatchingDims := []
  startIndexMap := [0, 1]
  indexVectorDim := 2
  sliceSizes := ![1, 1]
  wf := wf

/-- The element gather at those dimension numbers, read at `(n, k)` whose index pair reads `(b, c)` inside the matrix:
    on each operand axis the start is the pair's component for it (the clamp into `[0, size − 1]` does nothing to a
    component already in range), and neither a batching nor an offset coordinate is added (no batching axis, both axes
    collapsed). -/
theorem gather_elemDims_apply {α : Type} {B C N K w : ℕ}
    (wf : GatherDims.WF ⟨2, ![B, C]⟩ ⟨3, ![N, K, 2]⟩ ⟨2, ![N, K]⟩ [] [0, 1] [] [0, 1] [] 2 ![1, 1])
    (x : (⟨2, ![B, C]⟩ : Shape).Idx → α) (idx : IVec ⟨3, ![N, K, 2]⟩ w) (n : Fin N) (k : Fin K) (b : Fin B) (c : Fin C)
    (h0 : (idx (ix3 n k (0 : Fin 2))).toInt = (b.val : ℤ)) (h1 : (idx (ix3 n k (1 : Fin 2))).toInt = (c.val : ℤ)) :
    Host.gather (elemGatherDims B C N K wf) x idx (ix2 n k) = x (ix2 b c) := by
  unfold Host.gather
  congr 1
  funext a
  refine Fin.ext ?_
  match a with
  | ⟨0, _⟩ =>
    show (elemGatherDims B C N K wf).start (ix2 n k) idx 0 + (elemGatherDims B C N K wf).batchCoord (ix2 n k) 0
      + (elemGatherDims B C N K wf).offCoord (ix2 n k) 0 = b.val
    rw [GatherDims.batchCoord_eq_zero _ _ _ List.not_mem_nil,
      GatherDims.offCoord_eq_zero _ _ _
        (fun h => ((GatherDims.mem_sKept _ _).mp h).1 List.mem_cons_self)]
    simp only [Nat.add_zero]
    unfold GatherDims.start
    rw [dif_pos (show (0 : Fin 2) ∈ (elemGatherDims B C N K wf).startIndexMap from List.mem_cons_self)]
    have hsi : (elemGatherDims B C N K wf).siIdx (ix2 n k)
        ⟨List.idxOf (0 : Fin 2) (elemGatherDims B C N K wf).startIndexMap,
          List.idxOf_lt_length_iff.2 List.mem_cons_self⟩ = ix3 n k (0 : Fin 2) := by
      funext a'
      refine Fin.ext ?_
      match a' with
      | ⟨0, _⟩ => rfl
      | ⟨1, _⟩ => rfl
      | ⟨2, _⟩ => rfl
    rw [hsi, h0]
    show min ((b.val : ℤ)).toNat (B - 1) = b.val
    have := b.isLt
    omega
  | ⟨1, _⟩ =>
    show (elemGatherDims B C N K wf).start (ix2 n k) idx 1 + (elemGatherDims B C N K wf).batchCoord (ix2 n k) 1
      + (elemGatherDims B C N K wf).offCoord (ix2 n k) 1 = c.val
    rw [GatherDims.batchCoord_eq_zero _ _ _ List.not_mem_nil,
      GatherDims.offCoord_eq_zero _ _ _
        (fun h => ((GatherDims.mem_sKept _ _).mp h).1 (List.mem_cons_of_mem _ List.mem_cons_self))]
    simp only [Nat.add_zero]
    unfold GatherDims.start
    rw [dif_pos (show (1 : Fin 2) ∈ (elemGatherDims B C N K wf).startIndexMap from
      List.mem_cons_of_mem _ List.mem_cons_self)]
    have hsi : (elemGatherDims B C N K wf).siIdx (ix2 n k)
        ⟨List.idxOf (1 : Fin 2) (elemGatherDims B C N K wf).startIndexMap,
          List.idxOf_lt_length_iff.2 (List.mem_cons_of_mem _ List.mem_cons_self)⟩ = ix3 n k (1 : Fin 2) := by
      funext a'
      refine Fin.ext ?_
      match a' with
      | ⟨0, _⟩ => rfl
      | ⟨1, _⟩ => rfl
      | ⟨2, _⟩ => rfl
    rw [hsi, h1]
    show min ((c.val : ℤ)).toNat (C - 1) = c.val
    have := c.isLt
    omega

/-- The gather of jax's `x[r, c]` read at an index whose pair is in range: the operand's element at that pair. -/
theorem gather_elem_apply_of_inRange {α : Type} {B C N K w : ℕ} (d : GatherDims ⟨2, ![B, C]⟩ ⟨3, ![N, K, 2]⟩ ⟨2, ![N, K]⟩)
    (ho : d.offsetDims = []) (hc : d.collapsedSliceDims = [0, 1]) (hb : d.operandBatchingDims = [])
    (hsb : d.startIndicesBatchingDims = []) (hm : d.startIndexMap = [0, 1]) (hv : d.indexVectorDim = 2)
    (hsz : d.sliceSizes = ![1, 1])
    (x : (⟨2, ![B, C]⟩ : Shape).Idx → α) (idx : IVec ⟨3, ![N, K, 2]⟩ w) (n : Fin N) (k : Fin K) (b : Fin B) (c : Fin C)
    (h0 : (idx (ix3 n k (0 : Fin 2))).toInt = (b.val : ℤ)) (h1 : (idx (ix3 n k (1 : Fin 2))).toInt = (c.val : ℤ)) :
    Host.gather d x idx (ix2 n k) = x (ix2 b c) := by
  obtain ⟨od, cd, ob, sb, sm, iv, ss, wf⟩ := d
  simp only at ho hc hb hsb hm hv hsz
  subst ho hc hb hsb hm hv hsz
  exact gather_elemDims_apply wf x idx n k b c h0 h1

end Cert.Lib.ElemGS

end
-- ==== Proof.RefValue.lean ====
/-
  The reference program's result as one real number.

  The reference marks, for each row n, the columns named by the row's don't-care classes (a scatter of ones
  into a mask of zeros at the index pairs (n, dc n j)), compares each column with the row's target class, and
  selects per element (1 - x)² at the target column, else 0 at a marked column, else x²; the result is the
  sum of all elements.  On admitted inputs every element is the coercion of the real element loss, so the
  sum is the coercion of the real loss.
-/
import proofs.«425376_j74869869904427_3_alg».proof.Proof.RefRead
import proofs.«425376_j74869869904427_3_alg».proof.Proof.Spec
import proofs.«425376_j74869869904427_3_alg».proof.Proof.LibElemGS
import Idealize.ShloMosaic.Lib.IdealHost
import Idealize.ShloMosaic.Lib.StableHlo.Predicate

noncomputable section

namespace Cert.RefValue

open scoped BigOperators
open Idealize.ShloMosaic Idealize.ShloMosaic.ValueIdx Cert.ReferenceIdeal Cert.ReferenceIdeal.Gen Cert.ReferenceIdeal.ReadP Cert.Spec

/-! ## A scatter that overwrites with one constant -/

section ScatterConst
variable {α : Type} {s si u : Shape} {w : ℕ} (d : ScatterDims s si u) (x : s.Idx → α) (idx : IVec si w) (v : α)
  (i' : s.Idx)

/-- One step of the scatter's fold, overwriting with the constant `v`. -/
private def stepC (r : s.Idx → α) (n : Fin u.numel) : s.Idx → α :=
  match d.resultIdx? (u.rowMajor.symm n) idx with
  | some i => fun i'' => if i'' = i then (fun (_ : α) (b : α) => b) (r i) ((fun _ => v) (u.rowMajor.symm n)) else r i''
  | none => r

/-- A step whose update lands at `i'` writes `v` there. -/
private theorem stepC_hit (r : s.Idx → α) (n : Fin u.numel)
    (h : d.resultIdx? (u.rowMajor.symm n) idx = some i') : stepC d idx v r n i' = v := by
  unfold stepC
  rw [h]
  exact if_pos rfl

/-- A step whose update does not land at `i'` leaves the element at `i'` as it was. -/
private theorem stepC_miss (r : s.Idx → α) (n : Fin u.numel)
    (h : ¬ d.resultIdx? (u.rowMajor.symm n) idx = some i') : stepC d idx v r n i' = r i' := by
  unfold stepC
  cases hq : d.resultIdx? (u.rowMajor.symm n) idx with
  | none => rfl
  | some i =>
    have hne : ¬ i' = i := fun e => h (by rw [hq, e])
    exact if_neg hne

/-- Steps none of whose updates land at `i'` leave the element at `i'` as it was. -/
private theorem foldC_miss (l : List (Fin u.numel)) (r : s.Idx → α)
    (h : ∀ n ∈ l, ¬ d.resultIdx? (u.rowMajor.symm n) idx = some i') :
    l.foldl (stepC d idx v) r i' = r i' := by
  induction l generalizing r with
  | nil => rfl
  | cons a l ih =>
    rw [List.foldl_cons, ih _ (fun n hn => h n (List.mem_cons_of_mem _ hn))]
    exact stepC_miss d idx v i' r a (h a List.mem_cons_self)

/-- Steps one of whose updates lands at `i'` leave `v` there. -/
private theorem foldC_hit (l : List (Fin u.numel)) (r : s.Idx → α)
    (h : ∃ n ∈ l, d.resultIdx? (u.rowMajor.symm n) idx = some i') :
    l.foldl (stepC d idx v) r i' = v := by
  induction l generalizing r with
  | nil => obtain ⟨n, hn, _⟩ := h; exact absurd hn List.not_mem_nil
  | cons a l ih =>
    rw [List.foldl_cons]
    by_cases hl : ∃ n ∈ l, d.resultIdx? (u.rowMajor.symm n) idx = some i'
    · exact ih _ hl
    · have hmiss : ∀ n ∈ l, ¬ d.resultIdx? (u.rowMajor.symm n) idx = some i' :=
        fun n hn hp => hl ⟨n, hn, hp⟩
      rw [foldC_miss d idx v i' l _ hmiss]
      obtain ⟨n, hn, hp⟩ := h
      rcases List.mem_cons.1 hn with rfl | hn'
      · exact stepC_hit d idx v i' r n hp
      · exact absurd hp (hmiss n hn')

/-- The scatter is the fold of those steps. -/
private theorem scatter_eq_foldC :
    Host.scatter d (fun _ b => b) x idx (fun _ => v) = (List.finRange u.numel).foldl (stepC d idx v) x := rfl

/-- An element some update lands at holds the constant. -/
theorem scatter_const_hit (h : ∃ j : u.Idx, d.resultIdx? j idx = some i') :
    Host.scatter d (fun _ b => b) x idx (fun _ => v) i' = v := by
  rw [scatter_eq_foldC]
  obtain ⟨j, hj⟩ := h
  exact foldC_hit d idx v i' _ x ⟨u.rowMajor j, List.mem_finRange _, by rw [Equiv.symm_apply_apply]; exact hj⟩

/-- An element no update lands at holds the operand's element. -/
theorem scatter_const_miss (h : ¬ ∃ j : u.Idx, d.resultIdx? j idx = some i') :
    Host.scatter d (fun _ b => b) x idx (fun _ => v) i' = x i' := by
  rw [scatter_eq_foldC]
  exact foldC_miss d idx v i' _ x (fun n _ hp => h ⟨_, hp⟩)

end ScatterConst

/-! ## The scatter's index pairs -/

section Pairs
variable [Cert.ReferenceIdeal.Facts]

/-- A small natural number's word read signed is the number. -/
private theorem toInt_ofNat_lt (a : ℕ) (ha : a < 2 ^ 31) : (BitVec.ofNat 32 a).toInt = (a : ℤ) :=
  StableHlo.Predicate.toInt_ofNat_small a ha

/-- A word that reads nonnegative is not below the zero word. -/
private theorem cmpi_slt_zero_of_nonneg (b : BitVec 32) (h : 0 ≤ b.toInt) : IntOp.cmpi .slt b 0#32 = 0#1 := by
  apply eq_zero_of_ne_one
  intro hc
  have hb : b.slt 0#32 = true := (StableHlo.Predicate.ofBool_eq_one_iff _).1 hc
  have hlt : b.toInt < (0#32 : BitVec 32).toInt := BitVec.slt_iff_toInt_lt.1 hb
  have h0 : (0#32 : BitVec 32).toInt = 0 := by decide
  omega

/-- The row component of the index pair of update `(n, j)` is the word of `n`. -/
theorem pair_row (dc : (⟨S4096x64, .i32⟩ : BufTy).Contents (Elt Ideal)) (n : Fin 4096) (j : Fin 64) :
    val_main_v16 (F := Ideal) dc (ix3 n j (0 : Fin 2)) = BitVec.ofNat 32 n.val := by
  unfold val_main_v16
  rw [concatenate_pair_apply_left (t := S4096x64x2) (s₁ := S4096x64x1) (s₂ := S4096x64x1) (2 : Fin 3)
    (val_main_v14 (F := Ideal)) (val_main_v15 (F := Ideal) dc) concatenates_S4096x64x1_S4096x64x1_S4096x64x2_d2
    (ix3 n j (0 : Fin 2)) rfl (ix3 n j (0 : Fin 1))
    (fun b => match b with
      | ⟨0, _⟩ => rfl
      | ⟨1, _⟩ => rfl
      | ⟨2, _⟩ => rfl)]
  rw [val_main_v14_apply, val_main_v13_apply, val_main_v7_apply, val_main_v4_apply, val_main_v1_apply,
    val_main_v3_apply, val_main_c_0_apply, val_main_v0_apply]
  have hn : (BitVec.ofNat 32 n.val).toInt = (n.val : ℤ) := toInt_ofNat_lt n.val (by have := n.isLt; omega)
  show Scalar.select (IntOp.cmpi .slt (BitVec.ofNat 32 n.val) 0#32) _ (BitVec.ofNat 32 n.val) = _
  rw [cmpi_slt_zero_of_nonneg _ (by rw [hn]; exact Int.natCast_nonneg _), select_zero]

/-- The class component of the index pair of update `(n, j)` is the don't-care word, when that word reads nonnegative. -/
theorem pair_col (dc : (⟨S4096x64, .i32⟩ : BufTy).Contents (Elt Ideal)) (n : Fin 4096) (j : Fin 64)
    (h : 0 ≤ (dc (ix2 n j)).toInt) :
    val_main_v16 (F := Ideal) dc (ix3 n j (1 : Fin 2)) = dc (ix2 n j) := by
  unfold val_main_v16
  rw [concatenate_pair_apply_right (t := S4096x64x2) (s₁ := S4096x64x1) (s₂ := S4096x64x1) (2 : Fin 3)
    (val_main_v14 (F := Ideal)) (val_main_v15 (F := Ideal) dc) concatenates_S4096x64x1_S4096x64x1_S4096x64x2_d2
    (ix3 n j (1 : Fin 2)) rfl rfl (ix3 n j (0 : Fin 1))
    (fun b => match b with
      | ⟨0, _⟩ => fun _ => rfl
      | ⟨1, _⟩ => fun _ => rfl
      | ⟨2, _⟩ => fun hb => absurd rfl hb)
    rfl]
  rw [val_main_v15_apply, val_main_v12_apply, val_main_v9_apply, val_main_v8_apply, val_main_c_2_apply]
  have he : idx_main_v15 (ix3 n j (0 : Fin 1)) = ix2 n j := by
    funext a
    match a with
    | ⟨0, _⟩ => rfl
    | ⟨1, _⟩ => rfl
  rw [he, cmpi_slt_zero_of_nonneg _ h, select_zero]

end Pairs

/-! ## The mask of marked columns -/

section Mask
variable [Cert.ReferenceIdeal.Facts]

/-- The updates are all the one bit. -/
private theorem updates_const : val_main_v17 (F := Ideal) = fun _ => 1#1 := by
  funext i
  rw [val_main_v17_apply, val_main_c_4_apply]

/-- Some update lands at `(n, c)` exactly when one of row `n`'s don't-care classes, read signed, is `c`. -/
theorem lands_iff (dc : (⟨S4096x64, .i32⟩ : BufTy).Contents (Elt Ideal)) (hdc : ∀ i, 0 ≤ (dc i).toInt)
    (n : Fin 4096) (c : Fin 10000) :
    (∃ j : S4096x64.Idx, scatter_S4096x10000_S4096x64x2_S4096x64_n_01_01_2.resultIdx? j
        (val_main_v16 (F := Ideal) dc) = some (ix2 n c))
      ↔ ∃ k : Fin 64, (dc (ix2 n k)).toInt = (c.val : ℤ) := by
  constructor
  · rintro ⟨j, hj⟩
    obtain ⟨a, k, rfl⟩ : ∃ (a : Fin 4096) (k : Fin 64), j = ix2 a k := ⟨j 0, j 1, eq_ix2 j⟩
    have hp := (Cert.Lib.ElemGS.resultIdx?_elem_eq_some_iff (B := 4096) (C := 10000) (N := 4096) (K := 64)
      scatter_S4096x10000_S4096x64x2_S4096x64_n_01_01_2 rfl rfl rfl rfl (val_main_v16 (F := Ideal) dc) a k n c).1 hj
    rw [pair_row, pair_col dc _ _ (hdc _)] at hp
    obtain ⟨h0, h1⟩ := hp
    have hn : (BitVec.ofNat 32 a.val).toInt = (a.val : ℤ) :=
      toInt_ofNat_lt a.val (by have := a.isLt; omega)
    have han : a = n := Fin.ext (by omega)
    exact ⟨k, by rw [← han]; exact h1⟩
  · rintro ⟨k, hk⟩
    refine ⟨ix2 n k, ?_⟩
    refine (Cert.Lib.ElemGS.resultIdx?_elem_eq_some_iff (B := 4096) (C := 10000) (N := 4096) (K := 64)
      scatter_S4096x10000_S4096x64x2_S4096x64_n_01_01_2 rfl rfl rfl rfl (val_main_v16 (F := Ideal) dc) n k n c).2 ?_
    rw [pair_row, pair_col dc _ _ (hdc _)]
    exact ⟨toInt_ofNat_lt n.val (by have := n.isLt; omega), hk⟩

/-- The mask holds the one bit at a column one of the row's don't-care classes names. -/
theorem mask_hit (dc : (⟨S4096x64, .i32⟩ : BufTy).Contents (Elt Ideal)) (hdc : ∀ i, 0 ≤ (dc i).toInt)
    (n : Fin 4096) (c : Fin 10000) (h : ∃ k : Fin 64, (dc (ix2 n k)).toInt = (c.val : ℤ)) :
    val_main_v18 (F := Ideal) dc (ix2 n c) = 1#1 := by
  unfold val_main_v18
  rw [updates_const]
  exact scatter_const_hit _ _ _ _ _ ((lands_iff dc hdc n c).2 h)

/-- The mask holds the zero bit at a column none of the row's don't-care classes names. -/
theorem mask_miss (dc : (⟨S4096x64, .i32⟩ : BufTy).Contents (Elt Ideal)) (hdc : ∀ i, 0 ≤ (dc i).toInt)
    (n : Fin 4096) (c : Fin 10000) (h : ¬ ∃ k : Fin 64, (dc (ix2 n k)).toInt = (c.val : ℤ)) :
    val_main_v18 (F := Ideal) dc (ix2 n c) = 0#1 := by
  unfold val_main_v18
  rw [updates_const, scatter_const_miss _ _ _ _ _ (fun hh => h ((lands_iff dc hdc n c).1 hh)),
    val_main_v2_apply, val_main_c_apply]

end Mask

/-! ## The target column -/

section Target
variable [Cert.ReferenceIdeal.Facts]

/-- The compare with the target holds exactly at the column the row's target class, read signed, names. -/
theorem tgt_iff (t : (⟨S4096, .i32⟩ : BufTy).Contents (Elt Ideal)) (n : Fin 4096) (c : Fin 10000) :
    val_main_v24 (F := Ideal) t (ix2 n c) = 1#1 ↔ (c.val : ℤ) = (t (ix1 n)).toInt := by
  rw [val_main_v24_apply, val_main_v22_apply, val_main_v20_apply, val_main_v19_apply, val_main_v23_apply,
    val_main_v21_apply]
  have he : idx_main_v21 (idx_main_v23 (ix2 n c)) = ix1 n := by
    funext a
    match a with
    | ⟨0, _⟩ => rfl
  rw [he, StableHlo.Predicate.cmpi_eq_iff]
  show BitVec.ofNat 32 c.val = t (ix1 n) ↔ _
  have hc : (BitVec.ofNat 32 c.val).toInt = (c.val : ℤ) := toInt_ofNat_lt c.val (by have := c.isLt; omega)
  constructor
  · intro e
    rw [← e, hc]
  · intro e
    apply BitVec.eq_of_toInt_eq
    rw [hc, e]

end Target

/-! ## One element, and the sum -/

section Value
variable [Cert.ReferenceIdeal.Facts]

/-- On admitted inputs element `(n, c)` of the selected array is the real element loss. -/
theorem elem_eq (x : Cert.Spec.SX.Idx → EReal) (t : Cert.Spec.ST.Idx → BitVec 32) (dc : Cert.Spec.SD.Idx → BitVec 32)
    (h : Cert.Spec.InRange x t dc) (n : Fin 4096) (c : Fin 10000) :
    val_main_v30 (F := Ideal) x t dc (ix2 n c) = ((per x t dc n c : ℝ) : EReal) := by
  obtain ⟨hx, ht, hdc⟩ := h
  obtain ⟨r, hr⟩ := hx (ix2 n c)
  have hxr : xr x n c = r := by
    unfold xr
    rw [hr, EReal.toReal_coe]
  rw [val_main_v30_apply]
  unfold per
  by_cases h1 : (c.val : ℤ) = tgt t n
  · rw [if_pos h1, (tgt_iff t n c).2 h1, select_one, val_main_v27_apply, val_main_v26_apply, val_main_v25_apply,
      val_main_cst_apply]
    show (Ideal.ofBits .f32 0x3F800000#32 - x (ix2 n c)) * (Ideal.ofBits .f32 0x3F800000#32 - x (ix2 n c)) = _
    rw [Ideal.ofBits_one_f32, hr, hxr, ← EReal.coe_one, ← EReal.coe_sub, ← EReal.coe_mul]
  · rw [if_neg h1, eq_zero_of_ne_one (fun e => h1 ((tgt_iff t n c).1 e)), select_zero, val_main_v29_apply]
    by_cases h2 : ∃ j, dcv dc n j = (c.val : ℤ)
    · rw [if_pos h2, mask_hit dc (fun i => (hdc i).1) n c h2, select_one, val_main_call0_v1_apply,
        val_main_call0_v0_apply, val_main_cst_5_apply]
      show Ideal.ofBits .f32 0x00000000#32 = _
      rw [Ideal.ofBits_zero_f32, EReal.coe_zero]
    · rw [if_neg h2, mask_miss dc (fun i => (hdc i).1) n c h2, select_zero, val_main_v28_apply]
      show x (ix2 n c) * x (ix2 n c) = _
      rw [hr, hxr, EReal.coe_mul]

/-- A finite sum of coerced reals is the coerced sum. -/
private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- On admitted inputs the reference's result is the loss. -/
theorem ref_eq (x : Cert.Spec.SX.Idx → EReal) (t : Cert.Spec.ST.Idx → BitVec 32) (dc : Cert.Spec.SD.Idx → BitVec 32)
    (h : Cert.Spec.InRange x t dc) :
    Cert.ReferenceIdeal.ReadP.val_main_v31 (F := Ideal) x t dc = Cert.Spec.G x t dc := by
  funext i
  rw [val_main_v31_apply, val_main_cst_6_apply]
  show Ideal.ofBits .f32 0x00000000#32 + _ = _
  rw [Ideal.ofBits_zero_f32, zero_add, sum_idx2]
  unfold G lossR
  rw [← coe_sum]
  refine Finset.sum_congr rfl (fun n _ => ?_)
  rw [← coe_sum]
  exact Finset.sum_congr rfl (fun c _ => elem_eq x t dc h n c)

end Value

end Cert.RefValue

end
-- ==== Proof.PreDecode.lean ====
/-
  The precondition read back: when the printed predicate holds, every entry of x is a real number and every
  class word of t and dc, read signed, lies in 0 … 9999.

  The predicate is  all(|x| < +∞) ∧ all(0 ≤ t ∧ t < 10000) ∧ all(0 ≤ dc ∧ dc < 10000).  Each "all" is an
  and-reduction to a single word started from 1; it is 1 only if every reduced word is 1.  An extended real whose
  absolute value max(a, -a) lies strictly below +∞ is neither +∞ nor -∞, so it is a real number.  A signed
  comparison word that is 1 says the signed readings compare that way.
-/
import proofs.«425376_j74869869904427_3_alg».proof.Pre_finite_inputs
import proofs.«425376_j74869869904427_3_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- The rank-0 shape has exactly one index. -/
instance : Subsingleton S_.Idx := ⟨fun a b => funext fun d => d.elim0⟩

/-- The bit pattern 0x7F800000 denotes +∞. -/
theorem ofBits_inf : Ideal.ofBits .f32 0x7F800000#32 = (⊤ : EReal) := by
  simp [Ideal.ofBits, Ideal.ieee]

/-- An ordered "less than" comparison word that is 1 says its operands are strictly ordered. -/
theorem lt_of_cmp_olt {a b : EReal} (h : Ideal.cmp .olt a b = 1#1) : a < b := by
  unfold Ideal.cmp at h
  exact of_decide_eq_true ((StableHlo.Predicate.ofBool_eq_one_iff _).1 h)

/-- An extended real whose absolute value lies strictly below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The signed range 0 … 9999 of a word from its two comparison words. -/
theorem range_of_cmpi {a : BitVec 32}
    (h : IntOp.andi (IntOp.cmpi .sge a 0#32) (IntOp.cmpi .slt a 10000#32) = 1#1) :
    0 ≤ a.toInt ∧ a.toInt < 10000 := by
  obtain ⟨hge, hlt⟩ := IntOp.andi_eq_one.1 h
  have h0 : (0#32 : BitVec 32).toInt = 0 := by decide
  have h1 : (10000#32 : BitVec 32).toInt = 10000 := by decide
  have hge' := IntOp.cmpi_sge.1 hge
  have hlt' := IntOp.cmpi_slt.1 hlt
  rw [h0] at hge'
  rw [h1] at hlt'
  exact ⟨hge', hlt'⟩

variable [Facts]

/-- The first conjunct: every entry of x is a real number. -/
theorem x_real (x : FVec Ideal S4096x10000 .f32)
    (h : Host.reduce IntOp.andi
        (cmpf .olt (Host.absf x) (broadcastInDim S4096x10000 ![] Facts.bcast_S_S4096x10000 (constant (F := Ideal) S_ .f32 0x7F800000#32)))
        (constantI S_ 1 1#1) Facts.reducesTo_S4096x10000_S_d0_1 Facts.h_S_ ix0 = 1#1)
    (i : S4096x10000.Idx) : ∃ r : ℝ, x i = (r : EReal) := by
  have e := Host.reduce_andi_all _ _ _ _ _ h i
  have e' : Ideal.cmp .olt (max (x i) (-(x i))) (Ideal.ofBits .f32 0x7F800000#32) = 1#1 := e
  rw [ofBits_inf] at e'
  exact real_of_abs_lt_top _ (lt_of_cmp_olt e')

/-- The second conjunct: every target word is in 0 … 9999. -/
theorem t_range (t : IVec S4096 32)
    (h : Host.reduce IntOp.andi
        (andi (cmpi .sge t (broadcastInDim S4096 ![] Facts.bcast_S_S4096 (constantI S_ 32 0#32)))
              (cmpi .slt t (broadcastInDim S4096 ![] Facts.bcast_S_S4096 (constantI S_ 32 10000#32))))
        (constantI S_ 1 1#1) Facts.reducesTo_S4096_S_d0 Facts.h_S_ ix0 = 1#1)
    (n : S4096.Idx) : 0 ≤ (t n).toInt ∧ (t n).toInt < 10000 := by
  have e := Host.reduce_andi_all _ _ _ _ _ h n
  exact range_of_cmpi e

/-- The third conjunct: every don't-care word is in 0 … 9999. -/
theorem dc_range (dc : IVec S4096x64 32)
    (h : Host.reduce IntOp.andi
        (andi (cmpi .sge dc (broadcastInDim S4096x64 ![] Facts.bcast_S_S4096x64 (constantI S_ 32 0#32)))
              (cmpi .slt dc (broadcastInDim S4096x64 ![] Facts.bcast_S_S4096x64 (constantI S_ 32 10000#32))))
        (constantI S_ 1 1#1) Facts.reducesTo_S4096x64_S_d0_1 Facts.h_S_ ix0 = 1#1)
    (i : S4096x64.Idx) : 0 ≤ (dc i).toInt ∧ (dc i).toInt < 10000 := by
  have e := Host.reduce_andi_all _ _ _ _ _ h i
  exact range_of_cmpi e

/-- The printed precondition gives the admitted-input facts. -/
theorem inRange_of_pre
    (x : FVec Ideal Cert.Pre_finite_inputs.S4096x10000 .f32) (t : IVec Cert.Pre_finite_inputs.S4096 32) (dc : IVec Cert.Pre_finite_inputs.S4096x64 32)
    (h : Cert.Pre_finite_inputs.fn (F := Ideal) x t dc = fun _ => 1#1) : Cert.Spec.InRange x t dc := by
  have h0 := congrFun h ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  exact ⟨x_real x h1, t_range t h2, dc_range dc h3⟩

end Cert.PreDecode

end
-- ==== Proof.lean ====
/-
  The certificate: the kernel's loss equals the reference's, over the extended reals, for finite inputs whose class
  words lie in 0 … 9999.

  Both programs end with the loss  Σ_n Σ_c ℓ(n, c),  where ℓ(n, c) is (1 − x)² at the target column t n, 0 at a column
  named by one of the row's don't-care classes (the target taking precedence), and x² elsewhere. The reference
  computes the element losses through a scattered mask and a compare and sums them all. The kernel sums, per row,
  the squares of all entries (its pipelined region, 256 rows a block), adds 1 − 2·x[n, t n] (which turns the target's
  x² into (1 − x)²), subtracts x² once for each distinct don't-care class other than the target (the first occurrence
  of each class, found by comparing every pair of the row's 64 class words), and sums the rows. The two agree by one
  identity over the reals per row; finiteness of x is what lets the row's terms be regrouped, and the class range is
  what makes the kernel's gathered entries the entries the reference masks.

  The three frames: each kernel program runs its region and its 65 later host operations to the end, no later
  operation writing an argument; the reference is a straight line of host operations.
-/
import proofs.«425376_j74869869904427_3_alg».proof.Defs
import proofs.«425376_j74869869904427_3_alg».proof.Proof.Gen.Kernel
import proofs.«425376_j74869869904427_3_alg».proof.Proof.Gen.KernelIdeal
import proofs.«425376_j74869869904427_3_alg».proof.Proof.Gen.ReferenceIdeal
import proofs.«425376_j74869869904427_3_alg».proof.Proof.Gen.Pre_finite_inputs
import proofs.«425376_j74869869904427_3_alg».proof.Proof.KFrame
import proofs.«425376_j74869869904427_3_alg».proof.Proof.KIFrame
import proofs.«425376_j74869869904427_3_alg».proof.Proof.KIRead
import proofs.«425376_j74869869904427_3_alg».proof.Proof.KernelValue
import proofs.«425376_j74869869904427_3_alg».proof.Proof.RefRun
import proofs.«425376_j74869869904427_3_alg».proof.Proof.RefValue
import proofs.«425376_j74869869904427_3_alg».proof.Proof.PreDecode
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.HFrame.frame m ρ

/-- So does its idealization. -/
theorem frame_kernelIdeal : Cert.frame_KernelIdeal := fun m ρ _ => Cert.KernelIdeal.HFrame.frame m ρ

/-- The reference's run with its result dropped. -/
theorem frame_referenceIdeal : Cert.frame_ReferenceIdeal := fun m ρ _ =>
  (θ_run (Cert.ReferenceIdeal.defs (F := Ideal)) _ _).mono (fun _ h c => (h c).2) (Cert.ReferenceIdeal.HandRun.run (F := Ideal) m ρ)

/-- The idealization rewrote nothing. -/
theorem preserves : Cert.preserves_Kernel_KernelIdeal := trivial

/-- Both idealized programs, from memories agreeing on admitted arguments, end with the loss of those arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun _ h c => ⟨(h c).1.trans ?_, (h c).2⟩)
      (Cert.KernelIdeal.HRead.run m ρ)
    exact Cert.KernelIdeal.TailValue.ker_eq _ _ _ _ (Cert.PreDecode.inRange_of_pre _ _ _ (hpre c)) (fun _ => rfl)
  · refine (θ_run (Cert.ReferenceIdeal.defs (F := Ideal)) _ _).mono (fun _ h c => ⟨(h c).1.trans ?_, (h c).2⟩)
      (Cert.ReferenceIdeal.HandRun.run (F := Ideal) m' ρ')
    rw [(hagree c).1, (hagree c).2.1, (hagree c).2.2]
    exact Cert.RefValue.ref_eq _ _ _ (Cert.PreDecode.inRange_of_pre _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
